-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S128x30 : Shape := ⟨2, ![128, 30]⟩
abbrev S1x30 : Shape := ⟨2, ![1, 30]⟩
abbrev S30x16 : Shape := ⟨2, ![30, 16]⟩
abbrev S1x16 : Shape := ⟨2, ![1, 16]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S128x30 : S_.BroadcastsInDim S128x30 (![] : Fin 0 → Fin S128x30.rank)
  reducesTo_S128x30_S_d0_1 : S128x30.ReducesTo [0, 1] S_
  bcast_S_S1x30 : S_.BroadcastsInDim S1x30 (![] : Fin 0 → Fin S1x30.rank)
  reducesTo_S1x30_S_d0_1 : S1x30.ReducesTo [0, 1] S_
  bcast_S_S30x16 : S_.BroadcastsInDim S30x16 (![] : Fin 0 → Fin S30x16.rank)
  reducesTo_S30x16_S_d0_1 : S30x16.ReducesTo [0, 1] S_
  bcast_S_S1x16 : S_.BroadcastsInDim S1x16 (![] : Fin 0 → Fin S1x16.rank)
  reducesTo_S1x16_S_d0_1 : S1x16.ReducesTo [0, 1] S_

variable [Facts]

def fn_part1 {F : FTy → Type} [FloatOps F] (main_arg4 : FVec F S1x16 .f32) (main_v13 : IVec S_ 1) (main_v16 : IVec S30x16 1) : IVec S_ 1 :=
  let main_c_5 : IVec S_ 1 := constantI S_ 1 1#1
  let main_v17 : IVec S_ 1 := (fun x v => Host.reduce IntOp.andi x v reducesTo_S30x16_S_d0_1 h_S_) main_v16 main_c_5
  let main_v18 : IVec S_ 1 := andi main_v13 main_v17
  let main_v19 : FVec F S1x16 .f32 := Host.absf main_arg4
  let main_cst_6 : FVec F S_ .f32 := constant S_ .f32 0x7F800000#32
  let main_v20 : FVec F S1x16 .f32 := broadcastInDim S1x16 ![] bcast_S_S1x16 main_cst_6
  let main_v21 : IVec S1x16 1 := cmpf .olt main_v19 main_v20
  let main_c_7 : IVec S_ 1 := constantI S_ 1 1#1
  let main_v22 : IVec S_ 1 := (fun x v => Host.reduce IntOp.andi x v reducesTo_S1x16_S_d0_1 h_S_) main_v21 main_c_7
  let main_v23 : IVec S_ 1 := andi main_v18 main_v22
  main_v23

def fn {F : FTy → Type} [FloatOps F] (main_arg0 : FVec F S131072x128 .f32) (main_arg1 : FVec F S128x30 .f32) (main_arg2 : FVec F S1x30 .f32) (main_arg3 : FVec F S30x16 .f32) (main_arg4 : FVec F S1x16 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S128x30 .f32 := Host.absf main_arg1
  let main_cst_0 : FVec F S_ .f32 := constant S_ .f32 0x7F800000#32
  let main_v5 : FVec F S128x30 .f32 := broadcastInDim S128x30 ![] bcast_S_S128x30 main_cst_0
  let main_v6 : IVec S128x30 1 := cmpf .olt main_v4 main_v5
  let main_c_1 : IVec S_ 1 := constantI S_ 1 1#1
  let main_v7 : IVec S_ 1 := (fun x v => Host.reduce IntOp.andi x v reducesTo_S128x30_S_d0_1 h_S_) main_v6 main_c_1
  let main_v8 : IVec S_ 1 := andi main_v3 main_v7
  let main_v9 : FVec F S1x30 .f32 := Host.absf main_arg2
  let main_cst_2 : FVec F S_ .f32 := constant S_ .f32 0x7F800000#32
  let main_v10 : FVec F S1x30 .f32 := broadcastInDim S1x30 ![] bcast_S_S1x30 main_cst_2
  let main_v11 : IVec S1x30 1 := cmpf .olt main_v9 main_v10
  let main_c_3 : IVec S_ 1 := constantI S_ 1 1#1
  let main_v12 : IVec S_ 1 := (fun x v => Host.reduce IntOp.andi x v reducesTo_S1x30_S_d0_1 h_S_) main_v11 main_c_3
  let main_v13 : IVec S_ 1 := andi main_v8 main_v12
  let main_v14 : FVec F S30x16 .f32 := Host.absf main_arg3
  let main_cst_4 : FVec F S_ .f32 := constant S_ .f32 0x7F800000#32
  let main_v15 : FVec F S30x16 .f32 := broadcastInDim S30x16 ![] bcast_S_S30x16 main_cst_4
  let main_v16 : IVec S30x16 1 := cmpf .olt main_v14 main_v15
  fn_part1 (F := F) main_arg4 main_v13 main_v16
-- ==== Kernel.lean ====
abbrev S131072x128 : Shape := ⟨2, ![131072, 128]⟩
abbrev S128x30 : Shape := ⟨2, ![128, 30]⟩
abbrev S1x30 : Shape := ⟨2, ![1, 30]⟩
abbrev S30x16 : Shape := ⟨2, ![30, 16]⟩
abbrev S1x16 : Shape := ⟨2, ![1, 16]⟩
abbrev S_ : Shape := ⟨0, ![]⟩
abbrev S128x128 : Shape := ⟨2, ![128, 128]⟩
abbrev S1 : Shape := ⟨1, ![1]⟩
abbrev S1x128 : Shape := ⟨2, ![1, 128]⟩
abbrev S128x16 : Shape := ⟨2, ![128, 16]⟩
abbrev S131072x16 : Shape := ⟨2, ![131072, 16]⟩
abbrev S4096x128 : Shape := ⟨2, ![4096, 128]⟩
abbrev S4096x16 : Shape := ⟨2, ![4096, 16]⟩

abbrev nBuf : Space → Nat
  | .hbm => 21
  | .vmem => 8
  | .smem => 0
  | _ => 0

abbrev bufTy : (tb : Table) → Fin (tcTables nBuf tb) → BufTy
  | .hbm, ⟨0, _⟩ => ⟨S131072x128, .f32⟩
  | .hbm, ⟨1, _⟩ => ⟨S128x30, .f32⟩
  | .hbm, ⟨2, _⟩ => ⟨S1x30, .f32⟩
  | .hbm, ⟨3, _⟩ => ⟨S30x16, .f32⟩
  | .hbm, ⟨4, _⟩ => ⟨S1x16, .f32⟩
  | .hbm, ⟨5, _⟩ => ⟨S_, .f32⟩
  | .hbm, ⟨6, _⟩ => ⟨S128x128, .f32⟩
  | .hbm, ⟨7, _⟩ => ⟨S_, .i32⟩
  | .hbm, ⟨8, _⟩ => ⟨S1, .i32⟩
  | .hbm, ⟨9, _⟩ => ⟨S128x128, .f32⟩
  | .hbm, ⟨10, _⟩ => ⟨S_, .f32⟩
  | .hbm, ⟨11, _⟩ => ⟨S1x128, .f32⟩
  | .hbm, ⟨12, _⟩ => ⟨S_, .i32⟩
  | .hbm, ⟨13, _⟩ => ⟨S1, .i32⟩
  | .hbm, ⟨14, _⟩ => ⟨S1x128, .f32⟩
  | .hbm, ⟨15, _⟩ => ⟨S_, .f32⟩
  | .hbm, ⟨16, _⟩ => ⟨S128x16, .f32⟩
  | .hbm, ⟨17, _⟩ => ⟨S_, .i32⟩
  | .hbm, ⟨18, _⟩ => ⟨S1, .i32⟩
  | .hbm, ⟨19, _⟩ => ⟨S128x16, .f32⟩
  | .hbm, ⟨20, _⟩ => ⟨S131072x16, .f32⟩
  | .local _ .vmem, ⟨0, _⟩ => ⟨S4096x128, .f32⟩
  | .local _ .vmem, ⟨1, _⟩ => ⟨S4096x128, .f32⟩
  | .local _ .vmem, ⟨2, _⟩ => ⟨S128x128, .f32⟩
  | .local _ .vmem, ⟨3, _⟩ => ⟨S1x128, .f32⟩
  | .local _ .vmem, ⟨4, _⟩ => ⟨S128x16, .f32⟩
  | .local _ .vmem, ⟨5, _⟩ => ⟨S1x16, .f32⟩
  | .local _ .vmem, ⟨6, _⟩ => ⟨S4096x16, .f32⟩
  | .local _ .vmem, ⟨7, _⟩ => ⟨S4096x16, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_c_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S128x128 : S_.BroadcastsInDim S128x128 (![] : Fin 0 → Fin S128x128.rank)
  bcast_S_S1 : S_.BroadcastsInDim S1 (![] : Fin 0 → Fin S1.rank)
  bcast_S_S1x128 : S_.BroadcastsInDim S1x128 (![] : Fin 0 → Fin S1x128.rank)
  bcast_S_S128x16 : S_.BroadcastsInDim S128x16 (![] : Fin 0 → Fin S128x16.rank)
  inb_S4096x128_S4096x128_0_0 : ∀ a, (![0, 0] : Fin 2 → Nat) a + S4096x128.size a ≤ S4096x128.size a
  h_S4096x128 : 0 < S4096x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S1x16_S1x16_0_0 : ∀ a, (![0, 0] : Fin 2 → Nat) a + S1x16.size a ≤ S1x16.size a
  h_S1x16 : 0 < S1x16.numel
  broadcasts_S1x16_S4096x16 : S1x16.Broadcasts S4096x16
  inb_S4096x16_S4096x16_0_0 : ∀ a, (![0, 0] : Fin 2 → Nat) a + S4096x16.size a ≤ S4096x16.size a
  h_S4096x16 : 0 < S4096x16.numel
  scatter_S128x128_S1_S128x30_01_n_1_0_wf : ScatterDims.WF S128x128 S1 S128x30 [0, 1] [] [1] 0
  scatter_S1x128_S1_S1x30_01_n_1_0_wf : ScatterDims.WF S1x128 S1 S1x30 [0, 1] [] [1] 0
  scatter_S128x16_S1_S30x16_01_n_0_0_wf : ScatterDims.WF S128x16 S1 S30x16 [0, 1] [] [0] 0
  dot_S4096x128_S128x128_S4096x128_1_0_0_1_n_n_wf : DotDims.WF S4096x128 S128x128 S4096x128 [1] [0] [0] [1] [] []
  dot_S4096x128_S128x16_S4096x16_1_0_0_1_n_n_wf : DotDims.WF S4096x128 S128x16 S4096x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x16.size a ≤ S128x16.size a
  hwx0_3 : ∀ i : grid0.Coords, EltTy.bits .f32 = 32 ∨ (Rect.block (s := S128x16) S128x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x16.size a ≤ S131072x16.size a
  hwx0_5 : ∀ i : grid0.Coords, EltTy.bits .f32 = 32 ∨ (Rect.block (s := S131072x16) S4096x16.size (cc0_transform_5 i) (hinb0_5 i)).WholeWords (EltTy.packing .f32)

variable [Facts₀]

def scatter_S128x128_S1_S128x30_01_n_1_0 : ScatterDims S128x128 S1 S128x30 where
  updateWindowDims := [0, 1]
  insertedWindowDims := []
  scatterDimsToOperandDims := [1]
  indexVectorDim := 0
  wf := scatter_S128x128_S1_S128x30_01_n_1_0_wf
def scatter_S1x128_S1_S1x30_01_n_1_0 : ScatterDims S1x128 S1 S1x30 where
  updateWindowDims := [0, 1]
  insertedWindowDims := []
  scatterDimsToOperandDims := [1]
  indexVectorDim := 0
  wf := scatter_S1x128_S1_S1x30_01_n_1_0_wf
def scatter_S128x16_S1_S30x16_01_n_0_0 : ScatterDims S128x16 S1 S30x16 where
  updateWindowDims := [0, 1]
  insertedWindowDims := []
  scatterDimsToOperandDims := [0]
  indexVectorDim := 0
  wf := scatter_S128x16_S1_S30x16_01_n_0_0_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x16_S4096x16_1_0_0_1_n_n : DotDims S4096x128 S128x16 S4096x16 where
  lhsContracting := [1]
  rhsContracting := [0]
  lhsNonContracting := [0]
  rhsNonContracting := [1]
  lhsBatch := []
  rhsBatch := []
  wf := dot_S4096x128_S128x16_S4096x16_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S128x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S4096x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S131072x128 : Shape := ⟨2, ![131072, 128]⟩
abbrev S128x30 : Shape := ⟨2, ![128, 30]⟩
abbrev S1x30 : Shape := ⟨2, ![1, 30]⟩
abbrev S30x16 : Shape := ⟨2, ![30, 16]⟩
abbrev S1x16 : Shape := ⟨2, ![1, 16]⟩
abbrev S_ : Shape := ⟨0, ![]⟩
abbrev S131072x256 : Shape := ⟨2, ![131072, 256]⟩
abbrev S1 : Shape := ⟨1, ![1]⟩
abbrev S131072 : Shape := ⟨1, ![131072]⟩
abbrev S256x128 : Shape := ⟨2, ![256, 128]⟩
abbrev S2 : Shape := ⟨1, ![2]⟩
abbrev S30 : Shape := ⟨1, ![30]⟩
abbrev S128x128 : Shape := ⟨2, ![128, 128]⟩
abbrev S16 : Shape := ⟨1, ![16]⟩
abbrev S1024x256 : Shape := ⟨2, ![1024, 256]⟩
abbrev S1024x128 : Shape := ⟨2, ![1024, 128]⟩
abbrev S131072x16 : Shape := ⟨2, ![131072, 16]⟩

abbrev nBuf : Space → Nat
  | .hbm => 54
  | .vmem => 6
  | .smem => 0
  | _ => 0

abbrev bufTy : (tb : Table) → Fin (tcTables nBuf tb) → BufTy
  | .hbm, ⟨0, _⟩ => ⟨S131072x128, .f32⟩
  | .hbm, ⟨1, _⟩ => ⟨S128x30, .f32⟩
  | .hbm, ⟨2, _⟩ => ⟨S1x30, .f32⟩
  | .hbm, ⟨3, _⟩ => ⟨S30x16, .f32⟩
  | .hbm, ⟨4, _⟩ => ⟨S1x16, .f32⟩
  | .hbm, ⟨5, _⟩ => ⟨S_, .f32⟩
  | .hbm, ⟨6, _⟩ => ⟨S131072x256, .f32⟩
  | .hbm, ⟨7, _⟩ => ⟨S_, .i32⟩
  | .hbm, ⟨8, _⟩ => ⟨S1, .i32⟩
  | .hbm, ⟨9, _⟩ => ⟨S131072x256, .f32⟩
  | .hbm, ⟨10, _⟩ => ⟨S_, .i32⟩
  | .hbm, ⟨11, _⟩ => ⟨S1, .i32⟩
  | .hbm, ⟨12, _⟩ => ⟨S_, .f32⟩
  | .hbm, ⟨13, _⟩ => ⟨S131072, .f32⟩
  | .hbm, ⟨14, _⟩ => ⟨S131072x256, .f32⟩
  | .hbm, ⟨15, _⟩ => ⟨S_, .f32⟩
  | .hbm, ⟨16, _⟩ => ⟨S256x128, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S256x128, .f32⟩
  | .hbm, ⟨23, _⟩ => ⟨S30, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S256x128, .f32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S2, .i32⟩
  | .hbm, ⟨35, _⟩ => ⟨S_, .f32⟩
  | .hbm, ⟨36, _⟩ => ⟨S256x128, .f32⟩
  | .hbm, ⟨37, _⟩ => ⟨S_, .f32⟩
  | .hbm, ⟨38, _⟩ => ⟨S128x128, .f32⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S2, .i32⟩
  | .hbm, ⟨44, _⟩ => ⟨S128x128, .f32⟩
  | .hbm, ⟨45, _⟩ => ⟨S16, .f32⟩
  | .hbm, ⟨46, _⟩ => ⟨S_, .i32⟩
  | .hbm, ⟨47, _⟩ => ⟨S1, .i32⟩
  | .hbm, ⟨48, _⟩ => ⟨S_, .i32⟩
  | .hbm, ⟨49, _⟩ => ⟨S1, .i32⟩
  | .hbm, ⟨50, _⟩ => ⟨S2, .i32⟩
  | .hbm, ⟨51, _⟩ => ⟨S128x128, .f32⟩
  | .hbm, ⟨52, _⟩ => ⟨S131072x128, .f32⟩
  | .hbm, ⟨53, _⟩ => ⟨S131072x16, .f32⟩
  | .local _ .vmem, ⟨0, _⟩ => ⟨S1024x256, .f32⟩
  | .local _ .vmem, ⟨1, _⟩ => ⟨S1024x256, .f32⟩
  | .local _ .vmem, ⟨2, _⟩ => ⟨S256x128, .f32⟩
  | .local _ .vmem, ⟨3, _⟩ => ⟨S128x128, .f32⟩
  | .local _ .vmem, ⟨4, _⟩ => ⟨S1024x128, .f32⟩
  | .local _ .vmem, ⟨5, _⟩ => ⟨S1024x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_c_3 : Ref sig .tc := ⟨.hbm, 17, rfl⟩
abbrev main_v7 : Ref sig .tc := ⟨.hbm, 18, rfl⟩
abbrev main_c_4 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_5 : Ref sig .tc := ⟨.hbm, 24, rfl⟩
abbrev main_v12 : Ref sig .tc := ⟨.hbm, 25, rfl⟩
abbrev main_c_6 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_7 : Ref sig .tc := ⟨.hbm, 30, rfl⟩
abbrev main_v16 : Ref sig .tc := ⟨.hbm, 31, rfl⟩
abbrev main_c_8 : Ref sig .tc := ⟨.hbm, 32, rfl⟩
abbrev main_v17 : Ref sig .tc := ⟨.hbm, 33, rfl⟩
abbrev main_v18 : Ref sig .tc := ⟨.hbm, 34, rfl⟩
abbrev main_cst_9 : Ref sig .tc := ⟨.hbm, 35, rfl⟩
abbrev main_v19 : Ref sig .tc := ⟨.hbm, 36, rfl⟩
abbrev main_cst_10 : Ref sig .tc := ⟨.hbm, 37, rfl⟩
abbrev main_v20 : Ref sig .tc := ⟨.hbm, 38, rfl⟩
abbrev main_c_11 : Ref sig .tc := ⟨.hbm, 39, rfl⟩
abbrev main_v21 : Ref sig .tc := ⟨.hbm, 40, rfl⟩
abbrev main_c_12 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_13 : Ref sig .tc := ⟨.hbm, 46, rfl⟩
abbrev main_v26 : Ref sig .tc := ⟨.hbm, 47, rfl⟩
abbrev main_c_14 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S131072x256 : S_.BroadcastsInDim S131072x256 (![] : Fin 0 → Fin S131072x256.rank)
  bcast_S_S1 : S_.BroadcastsInDim S1 (![] : Fin 0 → Fin S1.rank)
  bcast_S_S131072 : S_.BroadcastsInDim S131072 (![] : Fin 0 → Fin S131072.rank)
  bcast_S_S256x128 : S_.BroadcastsInDim S256x128 (![] : Fin 0 → Fin S256x128.rank)
  concatenates_S1_S1_S2_d0 : Shape.Concatenates [S1, S1] S2 0
  shapeCasts_S1x30_S30 : S1x30.ShapeCasts S30
  bcast_S_S128x128 : S_.BroadcastsInDim S128x128 (![] : Fin 0 → Fin S128x128.rank)
  shapeCasts_S1x16_S16 : S1x16.ShapeCasts S16
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1024x128_S1024x128_0_0 : ∀ a, (![0, 0] : Fin 2 → Nat) a + S1024x128.size a ≤ S1024x128.size a
  h_S1024x128 : 0 < S1024x128.numel
  slices_S131072x128_S131072x16_0_0 : S131072x128.Slices ![0, 0] S131072x16
  scatter_S131072x256_S1_S131072x128_01_n_1_0_wf : ScatterDims.WF S131072x256 S1 S131072x128 [0, 1] [] [1] 0
  scatter_S131072x256_S1_S131072_0_1_1_0_wf : ScatterDims.WF S131072x256 S1 S131072 [0] [1] [1] 0
  scatter_S256x128_S2_S128x30_01_n_01_0_wf : ScatterDims.WF S256x128 S2 S128x30 [0, 1] [] [0, 1] 0
  scatter_S256x128_S2_S30_0_0_01_0_wf : ScatterDims.WF S256x128 S2 S30 [0] [0] [0, 1] 0
  scatter_S256x128_S2_S__n_01_01_0_wf : ScatterDims.WF S256x128 S2 S_ [] [0, 1] [0, 1] 0
  scatter_S128x128_S2_S30x16_01_n_01_0_wf : ScatterDims.WF S128x128 S2 S30x16 [0, 1] [] [0, 1] 0
  scatter_S128x128_S2_S16_0_0_01_0_wf : ScatterDims.WF S128x128 S2 S16 [0] [0] [0, 1] 0
  dot_S1024x256_S256x128_S1024x128_1_0_0_1_n_n_wf : DotDims.WF S1024x256 S256x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S131072x256.size a
  hwx0_0 : ∀ i : grid0.Coords, EltTy.bits .f32 = 32 ∨ (Rect.block (s := S131072x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S131072x128.size a
  hwx0_3 : ∀ i : grid0.Coords, EltTy.bits .f32 = 32 ∨ (Rect.block (s := S131072x128) S1024x128.size (cc0_transform_3 i) (hinb0_3 i)).WholeWords (EltTy.packing .f32)

variable [Facts₀]

def scatter_S131072x256_S1_S131072x128_01_n_1_0 : ScatterDims S131072x256 S1 S131072x128 where
  updateWindowDims := [0, 1]
  insertedWindowDims := []
  scatterDimsToOperandDims := [1]
  indexVectorDim := 0
  wf := scatter_S131072x256_S1_S131072x128_01_n_1_0_wf
def scatter_S131072x256_S1_S131072_0_1_1_0 : ScatterDims S131072x256 S1 S131072 where
  updateWindowDims := [0]
  insertedWindowDims := [1]
  scatterDimsToOperandDims := [1]
  indexVectorDim := 0
  wf := scatter_S131072x256_S1_S131072_0_1_1_0_wf
def scatter_S256x128_S2_S128x30_01_n_01_0 : ScatterDims S256x128 S2 S128x30 where
  updateWindowDims := [0, 1]
  insertedWindowDims := []
  scatterDimsToOperandDims := [0, 1]
  indexVectorDim := 0
  wf := scatter_S256x128_S2_S128x30_01_n_01_0_wf
def scatter_S256x128_S2_S30_0_0_01_0 : ScatterDims S256x128 S2 S30 where
  updateWindowDims := [0]
  insertedWindowDims := [0]
  scatterDimsToOperandDims := [0, 1]
  indexVectorDim := 0
  wf := scatter_S256x128_S2_S30_0_0_01_0_wf
def scatter_S256x128_S2_S__n_01_01_0 : ScatterDims S256x128 S2 S_ where
  updateWindowDims := []
  insertedWindowDims := [0, 1]
  scatterDimsToOperandDims := [0, 1]
  indexVectorDim := 0
  wf := scatter_S256x128_S2_S__n_01_01_0_wf
def scatter_S128x128_S2_S30x16_01_n_01_0 : ScatterDims S128x128 S2 S30x16 where
  updateWindowDims := [0, 1]
  insertedWindowDims := []
  scatterDimsToOperandDims := [0, 1]
  indexVectorDim := 0
  wf := scatter_S128x128_S2_S30x16_01_n_01_0_wf
def scatter_S128x128_S2_S16_0_0_01_0 : ScatterDims S128x128 S2 S16 where
  updateWindowDims := [0]
  insertedWindowDims := [0]
  scatterDimsToOperandDims := [0, 1]
  indexVectorDim := 0
  wf := scatter_S128x128_S2_S16_0_0_01_0_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_v5) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.Spec.lean ====
/-
  The mathematics both programs compute, over the extended reals.

  A two-layer perceptron with 30 hidden units: for a batch row `i` and an action `a`,
    policy x w1 b1 w2 b2 (i, a) = 2 · tanh ( Σ_{j<30} relu ( Σ_{k<128} x(i,k) · w1(k,j) + b1(0,j) ) · w2(j,a) + b2(0,a) ).

  The kernel pads the hidden axis with zero columns / zero rows to 128 and adds the biases after each product (`mlpK`
  over `padCols`, `padRows`); the reference folds the biases into the products through a column of ones appended to
  `x`, a bias row appended to each weight matrix and a pass-through hidden unit (`mlpR` over `packX`, `packW1`,
  `packW2`), and keeps the first 16 output columns (`keepCols`).  The float literal 2.0 is the same word in both
  programs and is never evaluated.
-/
import Idealize.ShloMosaic.PureOps.Ideal
import Idealize.ShloMosaic.Lib.ValueIdx

noncomputable section

namespace Cert.Spec

open Idealize.ShloMosaic Idealize.ShloMosaic.ValueIdx
open scoped BigOperators

/-- A matrix of extended reals with `r` rows and `c` columns, indexed as the programs index their arrays. -/
abbrev Arr (r c : ℕ) : Type := (⟨2, ![r, c]⟩ : Shape).Idx → EReal

/-- The output scale, the literal 2.0 as both programs print it. -/
abbrev two : EReal := Ideal.ofBits .f32 0x40000000#32

/-- The perceptron itself: 30 hidden units, biases added after each product. -/
def policy {R : ℕ} (x : Arr R 128) (w1 : Arr 128 30) (b1 : Arr 1 30) (w2 : Arr 30 16) (b2 : Arr 1 16) : Arr R 16 :=
  fun p => Ideal.tanh ((∑ j : Fin 30, max ((∑ k : Fin 128, x (ix2 (p 0 : Fin R) k) * w1 (ix2 k j)) + b1 (ix2 (0 : Fin 1) j)) 0
      * w2 (ix2 j (p 1 : Fin 16))) + b2 (ix2 (0 : Fin 1) (p 1 : Fin 16))) * two

/-- The kernel's arithmetic on one block of `R` rows: hidden axis of extent 128, biases added after each product. -/
def mlpK {R : ℕ} (X : Arr R 128) (W1 : Arr 128 128) (B1 : Arr 1 128) (W2 : Arr 128 16) (B2 : Arr 1 16) : Arr R 16 :=
  fun p => Ideal.tanh ((∑ j : Fin 128, max ((∑ k : Fin 128, X (ix2 (p 0 : Fin R) k) * W1 (ix2 k j)) + B1 (ix2 (0 : Fin 1) j)) 0
      * W2 (ix2 j (p 1 : Fin 16))) + B2 (ix2 (0 : Fin 1) (p 1 : Fin 16))) * two

/-- The reference's arithmetic on one block of `R` rows: 256 input features, 128 hidden units, 128 outputs, no bias added. -/
def mlpR {R : ℕ} (X : Arr R 256) (W1 : Arr 256 128) (W2 : Arr 128 128) : Arr R 128 :=
  fun p => Ideal.tanh (∑ j : Fin 128, max (∑ k : Fin 256, X (ix2 (p 0 : Fin R) k) * W1 (ix2 k j)) 0
      * W2 (ix2 j (p 1 : Fin 128))) * two

/-- 30 columns widened to 128 by zero columns. -/
def padCols {r : ℕ} (w : Arr r 30) : Arr r 128 :=
  fun p => if h : (p 1 : Fin 128).val < 30 then w (ix2 (p 0 : Fin r) ⟨(p 1 : Fin 128).val, h⟩) else 0

/-- 30 rows lengthened to 128 by zero rows. -/
def padRows {c : ℕ} (w : Arr 30 c) : Arr 128 c :=
  fun p => if h : (p 0 : Fin 128).val < 30 then w (ix2 ⟨(p 0 : Fin 128).val, h⟩ (p 1 : Fin c)) else 0

/-- The input with a column of ones appended at column 128, zero beyond. -/
def packX {R : ℕ} (x : Arr R 128) : Arr R 256 :=
  fun p => if h : (p 1 : Fin 256).val < 128 then x (ix2 (p 0 : Fin R) ⟨(p 1 : Fin 256).val, h⟩)
    else if (p 1 : Fin 256).val = 128 then 1 else 0

/-- The first layer's weights with the bias as row 128 and a pass-through 1 at (128, 30), zero elsewhere. -/
def packW1 (w1 : Arr 128 30) (b1 : Arr 1 30) : Arr 256 128 :=
  fun p => if hk : (p 0 : Fin 256).val < 128 then
      (if hj : (p 1 : Fin 128).val < 30 then w1 (ix2 ⟨(p 0 : Fin 256).val, hk⟩ ⟨(p 1 : Fin 128).val, hj⟩) else 0)
    else if (p 0 : Fin 256).val = 128 then
      (if hj : (p 1 : Fin 128).val < 30 then b1 (ix2 (0 : Fin 1) ⟨(p 1 : Fin 128).val, hj⟩)
       else if (p 1 : Fin 128).val = 30 then 1 else 0)
    else 0

/-- The second layer's weights with the bias as row 30, zero elsewhere. -/
def packW2 (w2 : Arr 30 16) (b2 : Arr 1 16) : Arr 128 128 :=
  fun p => if ha : (p 1 : Fin 128).val < 16 then
      (if hj : (p 0 : Fin 128).val < 30 then w2 (ix2 ⟨(p 0 : Fin 128).val, hj⟩ ⟨(p 1 : Fin 128).val, ha⟩)
       else if (p 0 : Fin 128).val = 30 then b2 (ix2 (0 : Fin 1) ⟨(p 1 : Fin 128).val, ha⟩) else 0)
    else 0

/-- The first 16 of 128 columns. -/
def keepCols {R : ℕ} (y : Arr R 128) : Arr R 16 :=
  fun p => y (ix2 (p 0 : Fin R) ⟨(p 1 : Fin 16).val, Nat.lt_of_lt_of_le (p 1 : Fin 16).isLt (by decide : 16 ≤ 128)⟩)

end Cert.Spec

end
-- ==== Proof.Algebra.lean ====
/-
  The two arrangements of the perceptron are the perceptron.
-/
import proofs.«128576_g2000306519504181_pallasbulk_291_1_alg».proof.Proof.Spec

noncomputable section

namespace Cert.Spec

open Idealize.ShloMosaic Idealize.ShloMosaic.ValueIdx
open scoped BigOperators

/-! ## Finite sums whose tail vanishes -/

/-- A sum over `Fin n` of a function that vanishes from index `m` on is the sum over `Fin m`. -/
theorem sum_fin_cut {M : Type*} [AddCommMonoid M] {m n : ℕ} (h : m ≤ n) (f : Fin n → M)
    (hz : ∀ i : Fin n, m ≤ i.val → f i = 0) :
    ∑ i : Fin n, f i = ∑ i : Fin m, f ⟨i.val, lt_of_lt_of_le i.isLt h⟩ := by
  obtain ⟨d, rfl⟩ := Nat.exists_eq_add_of_le h
  rw [Fin.sum_univ_add]
  have h0 : ∑ i : Fin d, f (Fin.natAdd m i) = 0 :=
    Finset.sum_eq_zero (fun i _ => hz _ (by simp [Fin.natAdd]))
  rw [h0, add_zero]
  rfl

/-- A sum over `Fin n` of a function that vanishes beyond index `m` is the sum over `Fin m` plus the term at `m`. -/
theorem sum_fin_cut_succ {M : Type*} [AddCommMonoid M] {m n : ℕ} (h : m < n) (f : Fin n → M)
    (hz : ∀ i : Fin n, m < i.val → f i = 0) :
    ∑ i : Fin n, f i = (∑ i : Fin m, f ⟨i.val, lt_trans i.isLt h⟩) + f ⟨m, h⟩ := by
  rw [sum_fin_cut (Nat.succ_le_of_lt h) f (fun i hi => hz i hi), Fin.sum_univ_castSucc]
  rfl

/-! ## The padded and packed arrays at an index given by its coordinates -/

theorem padCols_ix2 {r : ℕ} (w : Arr r 30) (a : Fin r) (j : Fin 128) :
    padCols w (ix2 a j) = if h : j.val < 30 then w (ix2 a ⟨j.val, h⟩) else 0 := rfl

theorem padRows_ix2 {c : ℕ} (w : Arr 30 c) (j : Fin 128) (a : Fin c) :
    padRows w (ix2 j a) = if h : j.val < 30 then w (ix2 ⟨j.val, h⟩ a) else 0 := rfl

theorem packX_ix2 {R : ℕ} (x : Arr R 128) (i : Fin R) (k : Fin 256) :
    packX x (ix2 i k) = if h : k.val < 128 then x (ix2 i ⟨k.val, h⟩) else if k.val = 128 then 1 else 0 := rfl

theorem packW1_ix2 (w1 : Arr 128 30) (b1 : Arr 1 30) (k : Fin 256) (j : Fin 128) :
    packW1 w1 b1 (ix2 k j) = if hk : k.val < 128 then
        (if hj : j.val < 30 then w1 (ix2 ⟨k.val, hk⟩ ⟨j.val, hj⟩) else 0)
      else if k.val = 128 then
        (if hj : j.val < 30 then b1 (ix2 (0 : Fin 1) ⟨j.val, hj⟩) else if j.val = 30 then 1 else 0)
      else 0 := rfl

theorem packW2_ix2 (w2 : Arr 30 16) (b2 : Arr 1 16) (j : Fin 128) (a : Fin 128) :
    packW2 w2 b2 (ix2 j a) = if ha : a.val < 16 then
        (if hj : j.val < 30 then w2 (ix2 ⟨j.val, hj⟩ ⟨a.val, ha⟩)
         else if j.val = 30 then b2 (ix2 (0 : Fin 1) ⟨a.val, ha⟩) else 0)
      else 0 := rfl

/-! ## The kernel's arrangement -/

/-- Zero hidden columns contribute nothing to the second product. -/
theorem mlpK_pad_at {R : ℕ} (x : Arr R 128) (w1 : Arr 128 30) (b1 : Arr 1 30) (w2 : Arr 30 16) (i : Fin R) (a : Fin 16) :
    ∑ j : Fin 128, max ((∑ k : Fin 128, x (ix2 i k) * padCols w1 (ix2 k j)) + padCols b1 (ix2 (0 : Fin 1) j)) 0
        * padRows w2 (ix2 j a)
      = ∑ j : Fin 30, max ((∑ k : Fin 128, x (ix2 i k) * w1 (ix2 k j)) + b1 (ix2 (0 : Fin 1) j)) 0 * w2 (ix2 j a) := by
  rw [sum_fin_cut (by decide : 30 ≤ 128)]
  · refine Finset.sum_congr rfl (fun j _ => ?_)
    rw [padRows_ix2, dif_pos j.isLt, padCols_ix2 b1, dif_pos j.isLt]
    congr 3
    refine Finset.sum_congr rfl (fun k _ => ?_)
    rw [padCols_ix2, dif_pos j.isLt]
  · intro j hj
    rw [padRows_ix2, dif_neg (by omega), mul_zero]

/-- Zero hidden columns contribute nothing: the kernel's arrangement over the padded weights is the perceptron. -/
theorem mlpK_pad {R : ℕ} (x : Arr R 128) (w1 : Arr 128 30) (b1 : Arr 1 30) (w2 : Arr 30 16) (b2 : Arr 1 16) :
    mlpK x (padCols w1) (padCols b1) (padRows w2) b2 = policy x w1 b1 w2 b2 := by
  funext p
  exact congrArg (fun s => Ideal.tanh (s + b2 (ix2 (0 : Fin 1) (p 1 : Fin 16))) * two)
    (mlpK_pad_at x w1 b1 w2 (p 0) (p 1))

/-! ## The reference's arrangement -/

/-- A hidden unit below 30 of the packed first layer: the ones column brings in the bias. -/
theorem hidden_lt {R : ℕ} (x : Arr R 128) (w1 : Arr 128 30) (b1 : Arr 1 30) (i : Fin R) (j : Fin 128) (hj : j.val < 30) :
    ∑ k : Fin 256, packX x (ix2 i k) * packW1 w1 b1 (ix2 k j)
      = (∑ k : Fin 128, x (ix2 i k) * w1 (ix2 k ⟨j.val, hj⟩)) + b1 (ix2 (0 : Fin 1) ⟨j.val, hj⟩) := by
  rw [sum_fin_cut_succ (by decide : 128 < 256)]
  · congr 1
    · refine Finset.sum_congr rfl (fun k _ => ?_)
      rw [packX_ix2, dif_pos k.isLt, packW1_ix2, dif_pos k.isLt, dif_pos hj]
    · rw [packX_ix2, dif_neg (lt_irrefl 128), if_pos rfl, packW1_ix2, dif_neg (lt_irrefl 128), if_pos rfl, dif_pos hj, one_mul]
  · intro k hk
    rw [packX_ix2, dif_neg (by omega), if_neg (by omega), zero_mul]

/-- Hidden unit 30 of the packed first layer is the constant 1. -/
theorem hidden_eq {R : ℕ} (x : Arr R 128) (w1 : Arr 128 30) (b1 : Arr 1 30) (i : Fin R) :
    ∑ k : Fin 256, packX x (ix2 i k) * packW1 w1 b1 (ix2 k (⟨30, by decide⟩ : Fin 128)) = 1 := by
  rw [sum_fin_cut_succ (by decide : 128 < 256)]
  · rw [Finset.sum_eq_zero, zero_add]
    · rw [packX_ix2, dif_neg (lt_irrefl 128), if_pos rfl, packW1_ix2, dif_neg (lt_irrefl 128), if_pos rfl,
        dif_neg (lt_irrefl 30), if_pos rfl, one_mul]
    · intro k _
      rw [packW1_ix2, dif_pos k.isLt, dif_neg (lt_irrefl 30), mul_zero]
  · intro k hk
    rw [packX_ix2, dif_neg (by omega), if_neg (by omega), zero_mul]

/-- The packed second layer at an output column below 16: the pass-through unit brings in the bias. -/
theorem mlpR_pack_at {R : ℕ} (x : Arr R 128) (w1 : Arr 128 30) (b1 : Arr 1 30) (w2 : Arr 30 16) (b2 : Arr 1 16)
    (i : Fin R) (a : Fin 16) (ha : a.val < 128) :
    ∑ j : Fin 128, max (∑ k : Fin 256, packX x (ix2 i k) * packW1 w1 b1 (ix2 k j)) 0
        * packW2 w2 b2 (ix2 j (⟨a.val, ha⟩ : Fin 128))
      = (∑ j : Fin 30, max ((∑ k : Fin 128, x (ix2 i k) * w1 (ix2 k j)) + b1 (ix2 (0 : Fin 1) j)) 0 * w2 (ix2 j a))
        + b2 (ix2 (0 : Fin 1) a) := by
  rw [sum_fin_cut_succ (by decide : 30 < 128)]
  · congr 1
    · refine Finset.sum_congr rfl (fun j _ => ?_)
      rw [hidden_lt x w1 b1 i _ j.isLt, packW2_ix2, dif_pos a.isLt, dif_pos j.isLt]
    · rw [hidden_eq, max_eq_left zero_le_one, one_mul, packW2_ix2, dif_pos a.isLt, dif_neg (lt_irrefl 30), if_pos rfl]
  · intro j hj
    rw [packW2_ix2, dif_pos a.isLt, dif_neg (by omega), if_neg (by omega), mul_zero]

/-- The ones column meets the bias rows: the reference's arrangement over the packed arrays, cut to 16 columns, is the perceptron. -/
theorem mlpR_pack {R : ℕ} (x : Arr R 128) (w1 : Arr 128 30) (b1 : Arr 1 30) (w2 : Arr 30 16) (b2 : Arr 1 16) :
    keepCols (mlpR (packX x) (packW1 w1 b1) (packW2 w2 b2)) = policy x w1 b1 w2 b2 := by
  funext p
  exact congrArg (fun s => Ideal.tanh s * two) (mlpR_pack_at x w1 b1 w2 b2 (p 0) (p 1) _)

end Cert.Spec

end
-- ==== Proof.LibScatterSet.lean ====
/-
  A `stablehlo.scatter` whose body returns the update (`x.at[...].set(u)`), read at an index.

  The scatter is a left fold over the update indices: update index `j` replaces the element at `resultIdx? j`
  (the start read off the scatter indices plus `j`'s window coordinate) when that lies inside the operand.
  When no two update indices land on one element, the result at `i` is the update's element at the one `j` that lands
  on `i` (`scatter_set_hit`), and the operand's own element when none does (`scatter_set_miss`).
  `resultIdx?_eq_some_iff` says where `j` lands: on `i` exactly when start + window coordinate is `i`'s on every axis.
-/
import Idealize.ShloMosaic.PureOps.ShapeOps

namespace Cert.LibScatterSet

open Idealize.ShloMosaic

variable {α : Type} {s si u : Shape} {w : ℕ}

/-- Update index `j` lands on `i` exactly when, on every axis, start plus window coordinate is `i`'s coordinate. -/
theorem resultIdx?_eq_some_iff (d : ScatterDims s si u) (j : u.Idx) (idx : IVec si w) (i : s.Idx) :
    d.resultIdx? j idx = some i ↔ ∀ a, d.start j idx a + (d.window j a : ℤ) = ((i a).val : ℤ) := by
  unfold ScatterDims.resultIdx?
  constructor
  · intro h
    split at h
    · rename_i hb
      have hi := Option.some.inj h
      intro a
      have hv := congrArg Fin.val (congrFun hi a)
      have hba := hb a
      simp only at hv
      omega
    · exact absurd h (by simp)
  · intro h
    have hb : ∀ a, 0 ≤ d.start j idx a + (d.window j a : ℤ) ∧ d.start j idx a + (d.window j a : ℤ) < s.size a := by
      intro a
      have h1 := h a
      have h2 := (i a).isLt
      omega
    rw [dif_pos hb]
    congr 1
    funext a
    apply Fin.ext
    have h1 := h a
    simp only
    omega

/-- One step of the fold, for a body that returns the update. -/
private def step (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

private theorem scatter_eq_foldl (d : ScatterDims s si u) (x : s.Idx → α) (idx : IVec si w) (upd : u.Idx → α) :
    Host.scatter d (fun _ b => b) x idx upd = (List.finRange u.numel).foldl (step d idx upd) x := rfl

private theorem step_miss (d : ScatterDims s si u) (idx : IVec si w) (upd : u.Idx → α) (r : s.Idx → α) (n : Fin u.numel) (i : s.Idx)
    (h : d.resultIdx? (u.rowMajor.symm n) idx ≠ some i) : step d idx upd r n i = r i := by
  unfold step
  generalize d.resultIdx? (u.rowMajor.symm n) idx = o at h ⊢
  cases o with
  | none => rfl
  | some i₀ =>
    have hne : i ≠ i₀ := fun e => h (e ▸ rfl)
    show (if i = i₀ then _ else _) = _
    rw [if_neg hne]

private theorem step_hit (d : ScatterDims s si u) (idx : IVec si w) (upd : u.Idx → α) (r : s.Idx → α) (n : Fin u.numel) (i : s.Idx)
    (h : d.resultIdx? (u.rowMajor.symm n) idx = some i) : step d idx upd r n i = upd (u.rowMajor.symm n) := by
  unfold step
  rw [h]
  show (if i = i then _ else _) = _
  rw [if_pos rfl]

private theorem foldl_miss (d : ScatterDims s si u) (idx : IVec si w) (upd : u.Idx → α) (i : s.Idx) :
    ∀ (l : List (Fin u.numel)) (r : s.Idx → α), (∀ n ∈ l, d.resultIdx? (u.rowMajor.symm n) idx ≠ some i) →
      l.foldl (step d idx upd) r i = r i
  | [], _, _ => rfl
  | n :: l, r, h => by
    rw [List.foldl_cons, foldl_miss d idx upd i l _ (fun n' hn' => h n' (List.mem_cons_of_mem _ hn'))]
    exact step_miss d idx upd r n i (h n List.mem_cons_self)

private theorem foldl_hit (d : ScatterDims s si u) (idx : IVec si w) (upd : u.Idx → α) (i : s.Idx) (n₀ : Fin u.numel)
    (h₀ : d.resultIdx? (u.rowMajor.symm n₀) idx = some i) :
    ∀ (l : List (Fin u.numel)) (r : s.Idx → α), n₀ ∈ l → (∀ n ∈ l, d.resultIdx? (u.rowMajor.symm n) idx = some i → n = n₀) →
      l.foldl (step d idx upd) r i = upd (u.rowMajor.symm n₀)
  | [], _, hm, _ => absurd hm (by simp)
  | n :: l, r, hm, hu => by
    rw [List.foldl_cons]
    by_cases hl : n₀ ∈ l
    · exact foldl_hit d idx upd i n₀ h₀ l _ hl (fun n' hn' => hu n' (List.mem_cons_of_mem _ hn'))
    · have hn : n = n₀ := by
        rcases List.mem_cons.mp hm with e | e
        · exact e.symm
        · exact absurd e hl
      subst hn
      rw [foldl_miss d idx upd i l _ (fun n' hn' e => hl (hu n' (List.mem_cons_of_mem _ hn') e ▸ hn'))]
      exact step_hit d idx upd r n i h₀

/-- The element an update index lands on, and only that index, takes the update's element. -/
theorem scatter_set_hit (d : ScatterDims s si u) (x : s.Idx → α) (idx : IVec si w) (upd : u.Idx → α) (i : s.Idx) (j : u.Idx)
    (hj : d.resultIdx? j idx = some i) (huniq : ∀ j', d.resultIdx? j' idx = some i → j' = j) :
    Host.scatter d (fun _ b => b) x idx upd i = upd j := by
  rw [scatter_eq_foldl]
  have e : u.rowMajor.symm (u.rowMajor j) = j := Equiv.symm_apply_apply _ _
  have := foldl_hit d idx upd i (u.rowMajor j) (by rw [e]; exact hj) (List.finRange u.numel) x (List.mem_finRange _)
    (fun n _ hn => by
      have := huniq _ hn
      rw [← this, Equiv.apply_symm_apply])
  rw [this, e]

/-- An element no update index lands on keeps the operand's element. -/
theorem scatter_set_miss (d : ScatterDims s si u) (x : s.Idx → α) (idx : IVec si w) (upd : u.Idx → α) (i : s.Idx)
    (h : ∀ j, d.resultIdx? j idx ≠ some i) :
    Host.scatter d (fun _ b => b) x idx upd i = x i := by
  rw [scatter_eq_foldl]
  exact foldl_miss d idx upd i _ x (fun n _ => h _)

end Cert.LibScatterSet
-- ==== Proof.KHost.lean ====
/-
  The kernel program's host lines before the call: the three weight operands as the call finds them are the
  arguments widened with zeros.  Each is a zero array into which the argument is written at the origin: an entry
  inside the argument's extent reads the argument, an entry outside reads the zero.
-/
import proofs.«128576_g2000306519504181_pallasbulk_291_1_alg».proof.Proof.Gen.KernelIdeal.Frame
import proofs.«128576_g2000306519504181_pallasbulk_291_1_alg».proof.Proof.Spec
import proofs.«128576_g2000306519504181_pallasbulk_291_1_alg».proof.Proof.LibScatterSet
import Idealize.ShloMosaic.Lib.StableHlo.Run
import Idealize.ShloMosaic.PureOps.Ideal.Laws

noncomputable section

namespace Cert.KernelIdeal.KHost

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- Where update entry `j` of the w1 lands: at its own coordinates (the scatter starts at the origin). -/
theorem win_w1 (j : S128x30.Idx) (a : Fin 2) : scatter_S128x128_S1_S128x30_01_n_1_0.window j a = (j a).val := by
  match a with
  | ⟨0, _⟩ => rfl
  | ⟨1, _⟩ => rfl

theorem start_w1 (j : S128x30.Idx) (a : Fin 2) :
    scatter_S128x128_S1_S128x30_01_n_1_0.start j (broadcastInDim S1 ![] bcast_S_S1 (constantI S_ 32 0#32)) a = 0 := by
  match a with
  | ⟨0, _⟩ => rfl
  | ⟨1, _⟩ => rfl

theorem lands_w1 (j : S128x30.Idx) (i : S128x128.Idx) :
    scatter_S128x128_S1_S128x30_01_n_1_0.resultIdx? j (broadcastInDim S1 ![] bcast_S_S1 (constantI S_ 32 0#32)) = some i
      ↔ (j 0).val = (i 0).val ∧ (j 1).val = (i 1).val := by
  rw [LibScatterSet.resultIdx?_eq_some_iff]
  constructor
  · intro h
    have h0 := h 0
    have h1 := h 1
    rw [start_w1, win_w1] at h0 h1
    constructor <;> omega
  · rintro ⟨h0, h1⟩ a
    rw [start_w1, win_w1]
    match a with
    | ⟨0, _⟩ => show (0 : ℤ) + ((j 0).val : ℤ) = ((i 0).val : ℤ); omega
    | ⟨1, _⟩ => show (0 : ℤ) + ((j 1).val : ℤ) = ((i 1).val : ℤ); omega

/-- Where update entry `j` of the b1 lands: at its own coordinates (the scatter starts at the origin). -/
theorem win_b1 (j : S1x30.Idx) (a : Fin 2) : scatter_S1x128_S1_S1x30_01_n_1_0.window j a = (j a).val := by
  match a with
  | ⟨0, _⟩ => rfl
  | ⟨1, _⟩ => rfl

theorem start_b1 (j : S1x30.Idx) (a : Fin 2) :
    scatter_S1x128_S1_S1x30_01_n_1_0.start j (broadcastInDim S1 ![] bcast_S_S1 (constantI S_ 32 0#32)) a = 0 := by
  match a with
  | ⟨0, _⟩ => rfl
  | ⟨1, _⟩ => rfl

theorem lands_b1 (j : S1x30.Idx) (i : S1x128.Idx) :
    scatter_S1x128_S1_S1x30_01_n_1_0.resultIdx? j (broadcastInDim S1 ![] bcast_S_S1 (constantI S_ 32 0#32)) = some i
      ↔ (j 0).val = (i 0).val ∧ (j 1).val = (i 1).val := by
  rw [LibScatterSet.resultIdx?_eq_some_iff]
  constructor
  · intro h
    have h0 := h 0
    have h1 := h 1
    rw [start_b1, win_b1] at h0 h1
    constructor <;> omega
  · rintro ⟨h0, h1⟩ a
    rw [start_b1, win_b1]
    match a with
    | ⟨0, _⟩ => show (0 : ℤ) + ((j 0).val : ℤ) = ((i 0).val : ℤ); omega
    | ⟨1, _⟩ => show (0 : ℤ) + ((j 1).val : ℤ) = ((i 1).val : ℤ); omega

/-- Where update entry `j` of the w2 lands: at its own coordinates (the scatter starts at the origin). -/
theorem win_w2 (j : S30x16.Idx) (a : Fin 2) : scatter_S128x16_S1_S30x16_01_n_0_0.window j a = (j a).val := by
  match a with
  | ⟨0, _⟩ => rfl
  | ⟨1, _⟩ => rfl

theorem start_w2 (j : S30x16.Idx) (a : Fin 2) :
    scatter_S128x16_S1_S30x16_01_n_0_0.start j (broadcastInDim S1 ![] bcast_S_S1 (constantI S_ 32 0#32)) a = 0 := by
  match a with
  | ⟨0, _⟩ => rfl
  | ⟨1, _⟩ => rfl

theorem lands_w2 (j : S30x16.Idx) (i : S128x16.Idx) :
    scatter_S128x16_S1_S30x16_01_n_0_0.resultIdx? j (broadcastInDim S1 ![] bcast_S_S1 (constantI S_ 32 0#32)) = some i
      ↔ (j 0).val = (i 0).val ∧ (j 1).val = (i 1).val := by
  rw [LibScatterSet.resultIdx?_eq_some_iff]
  constructor
  · intro h
    have h0 := h 0
    have h1 := h 1
    rw [start_w2, win_w2] at h0 h1
    constructor <;> omega
  · rintro ⟨h0, h1⟩ a
    rw [start_w2, win_w2]
    match a with
    | ⟨0, _⟩ => show (0 : ℤ) + ((j 0).val : ℤ) = ((i 0).val : ℤ); omega
    | ⟨1, _⟩ => show (0 : ℤ) + ((j 1).val : ℤ) = ((i 1).val : ℤ); omega

/-- The literal 0.0 is the extended real 0. -/
theorem zero_word : Ideal.ofBits .f32 0x00000000#32 = (0 : EReal) := Ideal.ofBits_zero_f32

/-- The first layer's weights, 30 columns widened to 128 with zeros. -/
theorem V_v2 (c : Dev nD) : (V m c main_v2 : Spec.Arr 128 128) = Spec.padCols (m ((c : Thread nD τ).loc main_arg1)) := by
  have e : (V m c main_v2 : S128x128.Idx → EReal) =
      Host.scatter scatter_S128x128_S1_S128x30_01_n_1_0 (fun _ b => b)
        (broadcastInDim S128x128 ![] bcast_S_S128x128 (constant (F := Ideal) S_ .f32 0x00000000#32))
        (broadcastInDim S1 ![] bcast_S_S1 (constantI S_ 32 0#32))
        (m ((c : Thread nD τ).loc main_arg1)) := by
    dsimp only [Gen.V, Gen.hostOps0]
    after_results
  rw [e]
  funext p
  unfold Spec.padCols
  by_cases h : (p 1 : Fin 128).val < 30
  · rw [dif_pos h]
    refine LibScatterSet.scatter_set_hit scatter_S128x128_S1_S128x30_01_n_1_0 _ _ _ p (ix2 (p 0 : Fin 128) ⟨(p 1 : Fin 128).val, h⟩ : S128x30.Idx) ?_ ?_
    · rw [lands_w1]; exact ⟨rfl, rfl⟩
    · intro j' hj'
      rw [lands_w1] at hj'
      funext a
      match a with
      | ⟨0, _⟩ => exact Fin.ext hj'.1
      | ⟨1, _⟩ => exact Fin.ext hj'.2
  · rw [dif_neg h, LibScatterSet.scatter_set_miss]
    · exact zero_word
    · intro j hj
      rw [lands_w1] at hj
      have := (j 1).isLt
      exact h (hj.2 ▸ this)

/-- The first layer's bias, widened likewise. -/
theorem V_v5 (c : Dev nD) : (V m c main_v5 : Spec.Arr 1 128) = Spec.padCols (m ((c : Thread nD τ).loc main_arg2)) := by
  have e : (V m c main_v5 : S1x128.Idx → EReal) =
      Host.scatter scatter_S1x128_S1_S1x30_01_n_1_0 (fun _ b => b)
        (broadcastInDim S1x128 ![] bcast_S_S1x128 (constant (F := Ideal) S_ .f32 0x00000000#32))
        (broadcastInDim S1 ![] bcast_S_S1 (constantI S_ 32 0#32))
        (m ((c : Thread nD τ).loc main_arg2)) := by
    dsimp only [Gen.V, Gen.hostOps0]
    after_results
  rw [e]
  funext p
  unfold Spec.padCols
  by_cases h : (p 1 : Fin 128).val < 30
  · rw [dif_pos h]
    refine LibScatterSet.scatter_set_hit scatter_S1x128_S1_S1x30_01_n_1_0 _ _ _ p (ix2 (p 0 : Fin 1) ⟨(p 1 : Fin 128).val, h⟩ : S1x30.Idx) ?_ ?_
    · rw [lands_b1]; exact ⟨rfl, rfl⟩
    · intro j' hj'
      rw [lands_b1] at hj'
      funext a
      match a with
      | ⟨0, _⟩ => exact Fin.ext hj'.1
      | ⟨1, _⟩ => exact Fin.ext hj'.2
  · rw [dif_neg h, LibScatterSet.scatter_set_miss]
    · exact zero_word
    · intro j hj
      rw [lands_b1] at hj
      have := (j 1).isLt
      exact h (hj.2 ▸ this)

/-- The second layer's weights, 30 rows lengthened to 128 with zeros. -/
theorem V_v8 (c : Dev nD) : (V m c main_v8 : Spec.Arr 128 16) = Spec.padRows (m ((c : Thread nD τ).loc main_arg3)) := by
  have e : (V m c main_v8 : S128x16.Idx → EReal) =
      Host.scatter scatter_S128x16_S1_S30x16_01_n_0_0 (fun _ b => b)
        (broadcastInDim S128x16 ![] bcast_S_S128x16 (constant (F := Ideal) S_ .f32 0x00000000#32))
        (broadcastInDim S1 ![] bcast_S_S1 (constantI S_ 32 0#32))
        (m ((c : Thread nD τ).loc main_arg3)) := by
    dsimp only [Gen.V, Gen.hostOps0]
    after_results
  rw [e]
  funext p
  unfold Spec.padRows
  by_cases h : (p 0 : Fin 128).val < 30
  · rw [dif_pos h]
    refine LibScatterSet.scatter_set_hit scatter_S128x16_S1_S30x16_01_n_0_0 _ _ _ p (ix2 ⟨(p 0 : Fin 128).val, h⟩ (p 1 : Fin 16) : S30x16.Idx) ?_ ?_
    · rw [lands_w2]; exact ⟨rfl, rfl⟩
    · intro j' hj'
      rw [lands_w2] at hj'
      funext a
      match a with
      | ⟨0, _⟩ => exact Fin.ext hj'.1
      | ⟨1, _⟩ => exact Fin.ext hj'.2
  · rw [dif_neg h, LibScatterSet.scatter_set_miss]
    · exact zero_word
    · intro j hj
      rw [lands_w2] at hj
      have := (j 0).isLt
      exact h (hj.1 ▸ this)

end Cert.KernelIdeal.KHost

end
-- ==== Proof.LibMatmul.lean ====
/-
  A plain matrix product [M,K] × [K,N] into a zero accumulator, read at an entry over the extended reals:
  entry (r, c) is Σ_k lhs(r,k) · rhs(k,c).
-/
import Idealize.ShloMosaic.PureOps.Ideal.Laws
import Idealize.ShloMosaic.Lib.ValueIdx

namespace Cert.LibMatmul

open Idealize.ShloMosaic Idealize.ShloMosaic.ValueIdx
open scoped BigOperators

variable {M K N : ℕ} (d : DotDims ⟨2, ![M, K]⟩ ⟨2, ![K, N]⟩ ⟨2, ![M, N]⟩)

/-- The left operand's row is the result's row. -/
theorem lhs_row (hlb : d.lhsBatch = []) (hln : d.lhsNonContracting = [0])
    (j : (⟨2, ![M, N]⟩ : Shape).Idx) (q : d.contr.Idx) : (d.lhsIdx j q 0).val = (j 0).val := by
  have hnb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hnb, dif_pos hn]
  simp only [Fin.val_cast]
  have key : ∀ (p p' : ℕ) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ 0 _ (show 0 < 2 by omega) (by simp [hlb, hln])

/-- The right operand's column is the result's column. -/
theorem rhs_col (hlb : d.lhsBatch = []) (hln : d.lhsNonContracting = [0]) (hrb : d.rhsBatch = []) (hrn : d.rhsNonContracting = [1])
    (j : (⟨2, ![M, N]⟩ : Shape).Idx) (q : d.contr.Idx) : (d.rhsIdx j q 1).val = (j 1).val := by
  have hnb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hnb, dif_pos hn]
  simp only [Fin.val_cast]
  have key : ∀ (p p' : ℕ) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ 1 _ (show 1 < 2 by omega) (by simp [hlb, hln, hrn])

/-- The product of an [M,K] by a [K,N] matrix into zero, at entry (r, c), is the sum over the contracted axis. -/
theorem matmul_plain_zero_apply
    (hlb : d.lhsBatch = []) (hln : d.lhsNonContracting = [0]) (hlc : d.lhsContracting = [1])
    (hrb : d.rhsBatch = []) (hrn : d.rhsNonContracting = [1]) (hrc : d.rhsContracting = [0])
    (prec : Option ContractPrecision) (lhs : FVec Ideal ⟨2, ![M, K]⟩ .f32) (rhs : FVec Ideal ⟨2, ![K, N]⟩ .f32)
    (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply]
  have hr : d.contr.rank = 1 := by rw [d.rank_contr, hlc]; rfl
  have hs : d.contr.size ⟨0, by omega⟩ = K := by
    have h0 : 0 < d.lhsContracting.length := by rw [hlc]; exact Nat.one_pos
    have := d.size_contr 0 h0
    rw [List.getElem_of_eq hlc h0] at this
    exact this
  rw [← Equiv.sum_comp (contrEquiv1 d K hr hs).symm]
  refine Finset.sum_congr rfl fun k _ => ?_
  have hk := contrEquiv1_symm_val d K hr hs k
  have el : d.lhsIdx (ix2 r c) ((contrEquiv1 d K hr hs).symm k) = ix2 r k := funext fun a => Fin.ext (by
    match a with
    | ⟨0, _⟩ => exact lhs_row d hlb hln _ _
    | ⟨1, _⟩ => exact (d.lhsIdx_val_of_single hlc _ _).trans hk)
  have er : d.rhsIdx (ix2 r c) ((contrEquiv1 d K hr hs).symm k) = ix2 k c := funext fun a => Fin.ext (by
    match a with
    | ⟨0, _⟩ => exact (d.rhsIdx_val_of_single hrc _ _).trans hk
    | ⟨1, _⟩ => exact rhs_col d hlb hln hrb hrn _ _)
  rw [el, er]

end Cert.LibMatmul
-- ==== Proof.KBody.lean ====
/-
  The kernel's body on one block of 4096 rows is the kernel's arrangement of the perceptron on that block:
  a product with the (padded) first-layer weights, the bias row added to every row, relu, a product with the
  (padded) second-layer weights, the bias row, tanh, times two.
-/
import proofs.«128576_g2000306519504181_pallasbulk_291_1_alg».proof.Proof.Gen.KernelIdeal.Skeleton
import proofs.«128576_g2000306519504181_pallasbulk_291_1_alg».proof.Proof.Spec
import proofs.«128576_g2000306519504181_pallasbulk_291_1_alg».proof.Proof.LibMatmul
import Idealize.ShloMosaic.Lib.Pipeline.Value
import Idealize.ShloMosaic.Lib.ValueLayout

noncomputable section

namespace Cert.KernelIdeal.KBody

open Cert.KernelIdeal Cert.KernelIdeal.Gen Idealize.ShloMosaic Idealize.ShloMosaic.ValueIdx

/-- The hidden layer of one block at entry (r, j): relu of the product's entry plus the bias. -/
theorem hidden_apply (x0 : FVec Ideal S4096x128 .f32) (x1 : FVec Ideal S128x128 .f32) (x2 : FVec Ideal S1x128 .f32)
    (r : Fin 4096) (j : Fin 128) :
    (maximumf
        (addf
          (matmul dot_S4096x128_S128x128_S4096x128_1_0_0_1_n_n none x0 x1 (constant (F := Ideal) S4096x128 .f32 0x00000000#32))
          (broadcastTo S4096x128 x2 broadcasts_S1x128_S4096x128))
        (broadcast S4096x128 (FloatOps.ofBits (F := Ideal) .f32 0x00000000#32))) (ix2 r j)
      = max ((∑ k : Fin 128, x0 (ix2 r k) * x1 (ix2 k j)) + x2 (ix2 (0 : Fin 1) j)) 0 := by
  show max (FloatOps.matmul dot_S4096x128_S128x128_S4096x128_1_0_0_1_n_n none x0 x1
        (constant (F := Ideal) S4096x128 .f32 0x00000000#32) (ix2 r j)
      + broadcastTo S4096x128 x2 broadcasts_S1x128_S4096x128 (ix2 r j))
      (Ideal.ofBits .f32 0x00000000#32) = _
  rw [Ideal.ofBits_zero_f32]
  refine congrArg₂ max (congrArg₂ (· + ·) ?_ ?_) rfl
  · exact LibMatmul.matmul_plain_zero_apply dot_S4096x128_S128x128_S4096x128_1_0_0_1_n_n rfl rfl rfl rfl rfl rfl none x0 x1 r j
  · exact broadcastTo_1b_ab_apply x2 broadcasts_S1x128_S4096x128 r j

/-- What the body stores, as one function of the five blocks it loads. -/
theorem pay_eq (x0 : Vec Ideal S4096x128 .f32) (x1 : Vec Ideal S128x128 .f32) (x2 : Vec Ideal S1x128 .f32)
    (x3 : Vec Ideal S128x16 .f32) (x4 : Vec Ideal S1x16 .f32) :
    k0_pay1 x0 x1 x2 x3 x4 = Spec.mlpK x0 x1 x2 x3 x4 := by
  funext p
  obtain ⟨r, a, rfl⟩ : ∃ (r : Fin 4096) (a : Fin 16), p = ix2 r a := ⟨p 0, p 1, eq_ix2 p⟩
  unfold k0_pay1 Spec.mlpK
  simp only [shapeCast_self]
  show Ideal.tanh (FloatOps.matmul dot_S4096x128_S128x16_S4096x16_1_0_0_1_n_n none _
        x3 (constant (F := Ideal) S4096x16 .f32 0x00000000#32) (ix2 r a)
      + broadcastTo S4096x16 x4 broadcasts_S1x16_S4096x16 (ix2 r a)) * Spec.two = _
  refine congrArg (fun z => Ideal.tanh z * Spec.two) (congrArg₂ (· + ·) ?_ ?_)
  · refine (LibMatmul.matmul_plain_zero_apply dot_S4096x128_S128x16_S4096x16_1_0_0_1_n_n rfl rfl rfl rfl rfl rfl none _ x3 r a).trans ?_
    exact Finset.sum_congr rfl fun j _ => congrArg (· * x3 (ix2 j a)) (hidden_apply x0 x1 x2 r j)
  · exact broadcastTo_1b_ab_apply x4 broadcasts_S1x16_S4096x16 r a

end Cert.KernelIdeal.KBody

end
-- ==== Proof.KValue.lean ====
/-
  The kernel program's result array after the run is the perceptron of the arguments.
-/
import proofs.«128576_g2000306519504181_pallasbulk_291_1_alg».proof.Proof.Gen.KernelIdeal.Value
import proofs.«128576_g2000306519504181_pallasbulk_291_1_alg».proof.Proof.Spec
import proofs.«128576_g2000306519504181_pallasbulk_291_1_alg».proof.Proof.Algebra
import proofs.«128576_g2000306519504181_pallasbulk_291_1_alg».proof.Proof.KHost
import proofs.«128576_g2000306519504181_pallasbulk_291_1_alg».proof.Proof.KBody

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The origin of a rank-2 rectangle, as the constant-zero offset. -/
theorem origin_eq : (![0, 0] : Fin 2 → Nat) = fun _ => 0 := funext fun a => by fin_cases a <;> rfl

/-- The printed index maps, decided over the 32 grid points: the input rows' window moves with the output's on the row
    axis, and every other block index is zero (the four weight operands are single whole blocks). -/
theorem idx_facts : ∀ t : Fin cfg0.N,
    win0_0.index t (0 : Fin 2) = win0_5.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 :=
  (by decide +kernel : ∀ t : Fin grid0.N, _)

/-- Every one of the 32 row blocks of the output is some point's. -/
theorem idx_onto : ∀ q : Fin 32, ∃ t : Fin cfg0.N, win0_5.index t = ![q.val, 0] :=
  (by decide +kernel : ∀ q : Fin 32, ∃ t : Fin grid0.N, win0_5.index t = ![q.val, 0])

/-- An entry of the output array is in point `t`'s block iff each coordinate is in the block's range on its axis. -/
theorem mem_blk (t : Fin cfg0.N) (i : S131072x16.Idx) :
    i ∈ ((cfg0.win 5).blk t).view.set ↔ ∀ a : Fin 2, win0_5.index t a * S4096x16.size a ≤ (i a).val ∧ (i a).val < win0_5.index t a * S4096x16.size a + S4096x16.size a := by
  show i ∈ ((View.whole main_v9).slice (win0_5.rect t)).set ↔ _
  rw [View.set_slice_whole, Rect.mem_set_unit]
  exact Iff.rfl

/-- The kernel's arrangement reads its first operand on the row of the entry only and the other four whole: two
    calls whose first operands agree on that row, whose weights are equal and whose entries share the column agree. -/
theorem mlpK_row {R R' : ℕ} (X : Spec.Arr R 128) (X' : Spec.Arr R' 128) (W1 W1' : Spec.Arr 128 128) (B1 B1' : Spec.Arr 1 128)
    (W2 W2' : Spec.Arr 128 16) (B2 B2' : Spec.Arr 1 16)
    (p : (⟨2, ![R, 16]⟩ : Shape).Idx) (p' : (⟨2, ![R', 16]⟩ : Shape).Idx)
    (hX : ∀ k : Fin 128, X (ix2 (p 0 : Fin R) k) = X' (ix2 (p' 0 : Fin R') k))
    (hW1 : W1 = W1') (hB1 : B1 = B1') (hW2 : W2 = W2') (hB2 : B2 = B2') (hp : (p 1 : Fin 16) = (p' 1 : Fin 16)) :
    Spec.mlpK X W1 B1 W2 B2 p = Spec.mlpK X' W1' B1' W2' B2' p' := by
  subst hW1 hB1 hW2 hB2
  unfold Spec.mlpK
  simp only [hX, hp]

/-- What grid point `t` writes back is block `t` of the kernel's arrangement over the operand arrays as the call finds them. -/
theorem flushed_eq (c : Dev nD) (t : Fin cfg0.N) :
    (dats m 0 c).flushed 5 t = ((cfg0.win 5).blk t).view.read (Elt Ideal)
      (Spec.mlpK (V m c main_arg0) (V m c main_v2) (V m c main_v5) (V m c main_v8) (V m c main_arg4)) := by
  rw [Value.flushed5]
  unfold out0_5
  rw [View.canon_unit_zero origin_eq]
  simp only [View.ld_unit_zero (S := S4096x128) origin_eq, View.ld_unit_zero (S := S128x128) origin_eq,
    View.ld_unit_zero (S := S1x128) origin_eq, View.ld_unit_zero (S := S128x16) origin_eq,
    View.ld_unit_zero (S := S1x16) origin_eq]
  rw [KBody.pay_eq]
  obtain ⟨e00, e01, e10, e11, e20, e21, e30, e31, e40, e41, e51⟩ := idx_facts t
  funext y
  show Spec.mlpK (iblk m c 0 t) (iblk m c 1 t) (iblk m c 2 t) (iblk m c 3 t) (iblk m c 4 t) y
    = Spec.mlpK (V m c main_arg0) (V m c main_v2) (V m c main_v5) (V m c main_v8) (V m c main_arg4) (((cfg0.win 5).blk t).view.emb y)
  refine mlpK_row (iblk m c 0 t) (V m c main_arg0) (iblk m c 1 t) (V m c main_v2) (iblk m c 2 t) (V m c main_v5)
    (iblk m c 3 t) (V m c main_v8) (iblk m c 4 t) (V m c main_arg4) y (((cfg0.win 5).blk t).view.emb y) ?_ ?_ ?_ ?_ ?_ ?_
  · intro k
    show V m c main_arg0 (((cfg0.win 0).blk t).view.emb (ix2 (y 0) k))
      = V m c main_arg0 (ix2 ((((cfg0.win 5).blk t).view.emb y) 0) k)
    refine congrArg _ ?_
    funext a; apply Fin.ext
    match a with
    | ⟨0, _⟩ => show win0_0.index t (0 : Fin 2) * 4096 + 1 * (y 0).val = win0_5.index t (0 : Fin 2) * 4096 + 1 * (y 0).val; omega
    | ⟨1, _⟩ => show win0_0.index t (1 : Fin 2) * 128 + 1 * k.val = k.val; omega
  · funext z
    show V m c main_v2 (((cfg0.win 1).blk t).view.emb z) = V m c main_v2 z
    refine congrArg _ ?_
    funext a; apply Fin.ext
    match a with
    | ⟨0, _⟩ => show win0_1.index t (0 : Fin 2) * 128 + 1 * (z 0).val = (z 0).val; omega
    | ⟨1, _⟩ => show win0_1.index t (1 : Fin 2) * 128 + 1 * (z 1).val = (z 1).val; omega
  · funext z
    show V m c main_v5 (((cfg0.win 2).blk t).view.emb z) = V m c main_v5 z
    refine congrArg _ ?_
    funext a; apply Fin.ext
    match a with
    | ⟨0, _⟩ => show win0_2.index t (0 : Fin 2) * 1 + 1 * (z 0).val = (z 0).val; omega
    | ⟨1, _⟩ => show win0_2.index t (1 : Fin 2) * 128 + 1 * (z 1).val = (z 1).val; omega
  · funext z
    show V m c main_v8 (((cfg0.win 3).blk t).view.emb z) = V m c main_v8 z
    refine congrArg _ ?_
    funext a; apply Fin.ext
    match a with
    | ⟨0, _⟩ => show win0_3.index t (0 : Fin 2) * 128 + 1 * (z 0).val = (z 0).val; omega
    | ⟨1, _⟩ => show win0_3.index t (1 : Fin 2) * 16 + 1 * (z 1).val = (z 1).val; omega
  · funext z
    show V m c main_arg4 (((cfg0.win 4).blk t).view.emb z) = V m c main_arg4 z
    refine congrArg _ ?_
    funext a; apply Fin.ext
    match a with
    | ⟨0, _⟩ => show win0_4.index t (0 : Fin 2) * 1 + 1 * (z 0).val = (z 0).val; omega
    | ⟨1, _⟩ => show win0_4.index t (1 : Fin 2) * 16 + 1 * (z 1).val = (z 1).val; omega
  · apply Fin.ext
    show (y 1).val = win0_5.index t (1 : Fin 2) * 16 + 1 * (y 1).val
    omega

/-- Every entry of the output array lies in the block of the point numbered by its row divided by 4096. -/
theorem cover (i : S131072x16.Idx) :
    ∃ t : Fin cfg0.N, (cfg0.win 5).flush t = true ∧ i ∈ ((cfg0.win 5).blk t).view.set := by
  have hi0 : (i 0).val < 131072 := (i 0).isLt
  have hi1 : (i 1).val < 16 := (i 1).isLt
  obtain ⟨t, ht⟩ := idx_onto ⟨(i 0).val / 4096, by omega⟩
  have q0 : win0_5.index t (0 : Fin 2) = (i 0).val / 4096 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 4096 ≤ (i 0).val ∧ (i 0).val < win0_5.index t (0 : Fin 2) * 4096 + 4096; omega
  | ⟨1, _⟩ => show win0_5.index t (1 : Fin 2) * 16 ≤ (i 1).val ∧ (i 1).val < win0_5.index t (1 : Fin 2) * 16 + 16; omega

/-- The output array after the 32 grid points: the kernel's arrangement over the operands as the call finds them. -/
theorem final (c : Dev nD) : (dats m 0 c).arrAt 5 cfg0.N
    = Spec.mlpK (V m c main_arg0) (V m c main_v2) (V m c main_v5) (V m c main_v8) (V m c main_arg4) := by
  exact (dats m 0 c).arrAt_eq_of_cover 5
    (Spec.mlpK (V m c main_arg0) (V m c main_v2) (V m c main_v5) (V m c main_v8) (V m c main_arg4))
    (fun t _ => flushed_eq m c t) cover

/-- The operands as the call finds them are the arguments, the three weight arrays widened with zeros, and zero
    hidden units contribute nothing: the output array is the perceptron of the arguments. -/
theorem final_policy (c : Dev nD) : (dats m 0 c).arrAt 5 cfg0.N
    = Spec.policy (m ((c : Thread nD τ).loc main_arg0)) (m ((c : Thread nD τ).loc main_arg1)) (m ((c : Thread nD τ).loc main_arg2)) (m ((c : Thread nD τ).loc main_arg3)) (m ((c : Thread nD τ).loc main_arg4)) := by
  rw [final m c, V_main_arg0 m c, KHost.V_v2 m c, KHost.V_v5 m c, KHost.V_v8 m c, V_main_arg4 m c]
  exact Spec.mlpK_pad _ _ _ _ _

/-- The run: the result is the perceptron of the arguments, the arguments unchanged. -/
theorem run : θ_run (defs (F := Ideal)) (onTc (τ := τ) (main (F := Ideal))) ⟨m, fun _ => 0, ρ⟩ fun r => ∀ c : Dev nD,
      r.2.mem ((c : Thread nD τ).loc main_v9) = Spec.policy (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  exact (θ_run defs _ _).mono (fun r h c => ⟨(h c).1.trans (final_policy m c), (h c).2⟩)
    (Value.run_blocks (F := Ideal) m ρ)

end Cert.KernelIdeal.KValue

end
-- ==== Proof.RHost.lean ====
/-
  The reference program's host lines before the call: the three operands as the call finds them are the packed arrays.

  Each operand is an array of zeros into which blocks are written one after the other at literal positions: the
  argument at the origin, then a bias row (or a column of ones), then for the first layer a single one.  Within one
  write no two entries of the block land on the same element, so an element reads the block's entry that lands on it
  and keeps what was there when none does.  Reading the nested writes at an index, outermost first, by cases on the
  index gives the packed array's defining cases.
-/
import proofs.«128576_g2000306519504181_pallasbulk_291_1_alg».proof.Proof.Gen.ReferenceIdeal.Frame
import proofs.«128576_g2000306519504181_pallasbulk_291_1_alg».proof.Proof.Spec
import proofs.«128576_g2000306519504181_pallasbulk_291_1_alg».proof.Proof.LibScatterSet
import Idealize.ShloMosaic.Lib.StableHlo.Run

noncomputable section

namespace Cert.ReferenceIdeal.RHost

open Cert.ReferenceIdeal Cert.ReferenceIdeal.Gen Idealize.ShloMosaic Idealize.ShloMosaic.TcCoe Idealize.SL.Sem
open Idealize.ShloMosaic.ValueIdx

variable (m : (ℓ : Loc nD τ sig) → Buf (Elt Ideal) ℓ)

/-- The literal 0.0 is the extended real 0. -/
theorem zero_word : Ideal.ofBits .f32 0x00000000#32 = (0 : EReal) := by simp [Ideal.ofBits, Ideal.ieee]

/-- The literal 1.0 is the extended real 1. -/
theorem one_word : Ideal.ofBits .f32 0x3F800000#32 = (1 : EReal) := by
  simp [Ideal.ofBits, Ideal.ieee, -EReal.coe_mul]
  norm_num

/-- A start index whose two components are the literals `r` (row) and `k` (column). -/
abbrev at2 (r k : BitVec 32) : IVec S2 32 :=
  concatenate S2 0 [⟨S1, broadcastInDim S1 ![] bcast_S_S1 (constantI S_ 32 r)⟩, ⟨S1, broadcastInDim S1 ![] bcast_S_S1 (constantI S_ 32 k)⟩]
    concatenates_S1_S1_S2_d0

/-- A start index of one component, the literal column `k`. -/
abbrev at1 (k : BitVec 32) : IVec S1 32 := broadcastInDim S1 ![] bcast_S_S1 (constantI S_ 32 k)

/-! ### The input: x written at the origin, then a column of ones at column 128 -/

theorem win_x (j : S131072x128.Idx) (a : Fin 2) : scatter_S131072x256_S1_S131072x128_01_n_1_0.window j a = (j a).val := by
  match a with
  | ⟨0, _⟩ => rfl
  | ⟨1, _⟩ => rfl

theorem start_x (j : S131072x128.Idx) (a : Fin 2) : scatter_S131072x256_S1_S131072x128_01_n_1_0.start j (at1 0#32) a = 0 := by
  match a with
  | ⟨0, _⟩ => rfl
  | ⟨1, _⟩ => rfl

/-- Entry `j` of x lands at its own coordinates. -/
theorem lands_x (j : S131072x128.Idx) (i : S131072x256.Idx) :
    scatter_S131072x256_S1_S131072x128_01_n_1_0.resultIdx? j (at1 0#32) = some i
      ↔ (j 0).val = (i 0).val ∧ (j 1).val = (i 1).val := by
  rw [LibScatterSet.resultIdx?_eq_some_iff]
  constructor
  · intro h
    have h0 := h 0
    have h1 := h 1
    rw [start_x, win_x] at h0 h1
    constructor <;> omega
  · rintro ⟨h0, h1⟩ a
    rw [start_x, win_x]
    match a with
    | ⟨0, _⟩ => show (0 : ℤ) + ((j 0).val : ℤ) = ((i 0).val : ℤ); omega
    | ⟨1, _⟩ => show (0 : ℤ) + ((j 1).val : ℤ) = ((i 1).val : ℤ); omega

theorem win_o_0 (j : S131072.Idx) : scatter_S131072x256_S1_S131072_0_1_1_0.window j 0 = (j 0).val := rfl
theorem win_o_1 (j : S131072.Idx) : scatter_S131072x256_S1_S131072_0_1_1_0.window j 1 = 0 := rfl
theorem start_o_0 (j : S131072.Idx) : scatter_S131072x256_S1_S131072_0_1_1_0.start j (at1 128#32) 0 = 0 := rfl
theorem start_o_1 (j : S131072.Idx) : scatter_S131072x256_S1_S131072_0_1_1_0.start j (at1 128#32) 1 = 128 := rfl

/-- Entry `j` of the column of ones lands in row `j` at column 128. -/
theorem lands_o (j : S131072.Idx) (i : S131072x256.Idx) :
    scatter_S131072x256_S1_S131072_0_1_1_0.resultIdx? j (at1 128#32) = some i
      ↔ (j 0).val = (i 0).val ∧ (i 1).val = 128 := by
  rw [LibScatterSet.resultIdx?_eq_some_iff]
  constructor
  · intro h
    have h0 := h 0
    have h1 := h 1
    rw [start_o_0, win_o_0] at h0
    rw [start_o_1, win_o_1] at h1
    constructor <;> omega
  · rintro ⟨h0, h1⟩ a
    match a with
    | ⟨0, _⟩ => show scatter_S131072x256_S1_S131072_0_1_1_0.start j (at1 128#32) 0 + (scatter_S131072x256_S1_S131072_0_1_1_0.window j 0 : ℤ) = ((i 0).val : ℤ); rw [start_o_0, win_o_0]; omega
    | ⟨1, _⟩ => show scatter_S131072x256_S1_S131072_0_1_1_0.start j (at1 128#32) 1 + (scatter_S131072x256_S1_S131072_0_1_1_0.window j 1 : ℤ) = ((i 1).val : ℤ); rw [start_o_1, win_o_1]; omega

set_option maxHeartbeats 4000000 in
/-- The buffer the call reads as its first operand, as the host lines build it. -/
theorem term_v5 (c : Dev nD) : (V m c main_v5 : S131072x256.Idx → EReal) =
      Host.scatter scatter_S131072x256_S1_S131072_0_1_1_0 (fun _ b => b)
        (Host.scatter scatter_S131072x256_S1_S131072x128_01_n_1_0 (fun _ b => b)
          (broadcastInDim S131072x256 ![] bcast_S_S131072x256 (constant (F := Ideal) S_ .f32 0x00000000#32))
          (at1 0#32)
          (m ((c : Thread nD τ).loc main_arg0)))
        (at1 128#32)
        (broadcastInDim S131072 ![] bcast_S_S131072 (constant (F := Ideal) S_ .f32 0x3F800000#32)) := by
  show StableHlo.after hostOps0 (fun b => m (c, b)) (Proc.devRef .tc main_v5) = _
  after_results

/-- The input with its column of ones. -/
theorem V_v5 (c : Dev nD) : (V m c main_v5 : Spec.Arr 131072 256) = Spec.packX (m ((c : Thread nD τ).loc main_arg0)) := by
  rw [term_v5 m c]
  funext p
  unfold Spec.packX
  by_cases h : (p 1 : Fin 256).val < 128
  · -- inside x's extent
    rw [dif_pos h, LibScatterSet.scatter_set_miss]
    · refine LibScatterSet.scatter_set_hit scatter_S131072x256_S1_S131072x128_01_n_1_0 _ _ _ p
        (ix2 (p 0 : Fin 131072) ⟨(p 1 : Fin 256).val, h⟩ : S131072x128.Idx) ?_ ?_
      · rw [lands_x]; exact ⟨rfl, rfl⟩
      · intro j' hj'
        rw [lands_x] at hj'
        funext a
        match a with
        | ⟨0, _⟩ => exact Fin.ext hj'.1
        | ⟨1, _⟩ => exact Fin.ext hj'.2
    · intro j hl
      rw [lands_o] at hl
      omega
  · rw [dif_neg h]
    by_cases h128 : (p 1 : Fin 256).val = 128
    · -- the column of ones
      rw [if_pos h128]
      rw [LibScatterSet.scatter_set_hit scatter_S131072x256_S1_S131072_0_1_1_0 _ _ _ p
        (ix1 (p 0 : Fin 131072) : S131072.Idx) ?_ ?_]
      · exact one_word
      · rw [lands_o]; exact ⟨rfl, h128⟩
      · intro j' hj'
        rw [lands_o] at hj'
        funext a
        match a with
        | ⟨0, _⟩ => exact Fin.ext hj'.1
    · rw [if_neg h128, LibScatterSet.scatter_set_miss, LibScatterSet.scatter_set_miss]
      · exact zero_word
      · intro j hl
        rw [lands_x] at hl
        have : (j 1).val < 128 := (j 1).isLt
        omega
      · intro j hl
        rw [lands_o] at hl
        exact h128 hl.2

/-! ### The first layer's weights: w1 written at the origin, the bias into row 128, a one at (128, 30) -/

theorem win_w1 (j : S128x30.Idx) (a : Fin 2) : scatter_S256x128_S2_S128x30_01_n_01_0.window j a = (j a).val := by
  match a with
  | ⟨0, _⟩ => rfl
  | ⟨1, _⟩ => rfl

theorem start_w1 (j : S128x30.Idx) (a : Fin 2) : scatter_S256x128_S2_S128x30_01_n_01_0.start j (at2 0#32 0#32) a = 0 := by
  match a with
  | ⟨0, _⟩ => rfl
  | ⟨1, _⟩ => rfl

/-- Entry `j` of w1 lands at its own coordinates. -/
theorem lands_w1 (j : S128x30.Idx) (i : S256x128.Idx) :
    scatter_S256x128_S2_S128x30_01_n_01_0.resultIdx? j (at2 0#32 0#32) = some i
      ↔ (j 0).val = (i 0).val ∧ (j 1).val = (i 1).val := by
  rw [LibScatterSet.resultIdx?_eq_some_iff]
  constructor
  · intro h
    have h0 := h 0
    have h1 := h 1
    rw [start_w1, win_w1] at h0 h1
    constructor <;> omega
  · rintro ⟨h0, h1⟩ a
    rw [start_w1, win_w1]
    match a with
    | ⟨0, _⟩ => show (0 : ℤ) + ((j 0).val : ℤ) = ((i 0).val : ℤ); omega
    | ⟨1, _⟩ => show (0 : ℤ) + ((j 1).val : ℤ) = ((i 1).val : ℤ); omega

theorem win_b1_0 (j : S30.Idx) : scatter_S256x128_S2_S30_0_0_01_0.window j 0 = 0 := rfl
theorem win_b1_1 (j : S30.Idx) : scatter_S256x128_S2_S30_0_0_01_0.window j 1 = (j 0).val := rfl
theorem start_b1_0 (j : S30.Idx) : scatter_S256x128_S2_S30_0_0_01_0.start j (at2 128#32 0#32) 0 = 128 := rfl
theorem start_b1_1 (j : S30.Idx) : scatter_S256x128_S2_S30_0_0_01_0.start j (at2 128#32 0#32) 1 = 0 := rfl

/-- Entry `j` of the bias lands in row 128 at column `j`. -/
theorem lands_b1 (j : S30.Idx) (i : S256x128.Idx) :
    scatter_S256x128_S2_S30_0_0_01_0.resultIdx? j (at2 128#32 0#32) = some i
      ↔ (i 0).val = 128 ∧ (j 0).val = (i 1).val := by
  rw [LibScatterSet.resultIdx?_eq_some_iff]
  constructor
  · intro h
    have h0 := h 0
    have h1 := h 1
    rw [start_b1_0, win_b1_0] at h0
    rw [start_b1_1, win_b1_1] at h1
    constructor <;> omega
  · rintro ⟨h0, h1⟩ a
    match a with
    | ⟨0, _⟩ => show scatter_S256x128_S2_S30_0_0_01_0.start j (at2 128#32 0#32) 0 + (scatter_S256x128_S2_S30_0_0_01_0.window j 0 : ℤ) = ((i 0).val : ℤ); rw [start_b1_0, win_b1_0]; omega
    | ⟨1, _⟩ => show scatter_S256x128_S2_S30_0_0_01_0.start j (at2 128#32 0#32) 1 + (scatter_S256x128_S2_S30_0_0_01_0.window j 1 : ℤ) = ((i 1).val : ℤ); rw [start_b1_1, win_b1_1]; omega

theorem win_u1_0 (j : S_.Idx) : scatter_S256x128_S2_S__n_01_01_0.window j 0 = 0 := rfl
theorem win_u1_1 (j : S_.Idx) : scatter_S256x128_S2_S__n_01_01_0.window j 1 = 0 := rfl
theorem start_u1_0 (j : S_.Idx) : scatter_S256x128_S2_S__n_01_01_0.start j (at2 128#32 30#32) 0 = 128 := rfl
theorem start_u1_1 (j : S_.Idx) : scatter_S256x128_S2_S__n_01_01_0.start j (at2 128#32 30#32) 1 = 30 := rfl

/-- The one scalar lands at (128, 30). -/
theorem lands_u1 (j : S_.Idx) (i : S256x128.Idx) :
    scatter_S256x128_S2_S__n_01_01_0.resultIdx? j (at2 128#32 30#32) = some i
      ↔ (i 0).val = 128 ∧ (i 1).val = 30 := by
  rw [LibScatterSet.resultIdx?_eq_some_iff]
  constructor
  · intro h
    have h0 := h 0
    have h1 := h 1
    rw [start_u1_0, win_u1_0] at h0
    rw [start_u1_1, win_u1_1] at h1
    constructor <;> omega
  · rintro ⟨h0, h1⟩ a
    match a with
    | ⟨0, _⟩ => show scatter_S256x128_S2_S__n_01_01_0.start j (at2 128#32 30#32) 0 + (scatter_S256x128_S2_S__n_01_01_0.window j 0 : ℤ) = ((i 0).val : ℤ); rw [start_u1_0, win_u1_0]; omega
    | ⟨1, _⟩ => show scatter_S256x128_S2_S__n_01_01_0.start j (at2 128#32 30#32) 1 + (scatter_S256x128_S2_S__n_01_01_0.window j 1 : ℤ) = ((i 1).val : ℤ); rw [start_u1_1, win_u1_1]; omega

/-- The bias as a vector of 30, read at `j`, is the bias row's entry `j`. -/
theorem flat_b1 (b1 : S1x30.Idx → EReal) (j : S30.Idx) :
    shapeCast S30 b1 shapeCasts_S1x30_S30 j = b1 (ix2 (0 : Fin 1) (j 0)) := by
  unfold shapeCast
  refine congrArg b1 (Shape.reshapeEquiv_eq_of_rowMajor _ ?_)
  rw [Shape.rowMajor_val_two, Shape.rowMajor_val_one]
  show 0 * _ + (j 0).val = (j 0).val
  omega

set_option maxHeartbeats 4000000 in
/-- The buffer the call reads as its second operand, as the host lines build it. -/
theorem term_v19 (c : Dev nD) : (V m c main_v19 : S256x128.Idx → EReal) =
      Host.scatter scatter_S256x128_S2_S__n_01_01_0 (fun _ b => b)
        (Host.scatter scatter_S256x128_S2_S30_0_0_01_0 (fun _ b => b)
          (Host.scatter scatter_S256x128_S2_S128x30_01_n_01_0 (fun _ b => b)
            (broadcastInDim S256x128 ![] bcast_S_S256x128 (constant (F := Ideal) S_ .f32 0x00000000#32))
            (at2 0#32 0#32)
            (m ((c : Thread nD τ).loc main_arg1)))
          (at2 128#32 0#32)
          (shapeCast S30 (m ((c : Thread nD τ).loc main_arg2)) shapeCasts_S1x30_S30))
        (at2 128#32 30#32)
        (constant (F := Ideal) S_ .f32 0x3F800000#32) := by
  show StableHlo.after hostOps0 (fun b => m (c, b)) (Proc.devRef .tc main_v19) = _
  after_results
  rfl

/-- The first layer's weights with the bias row and the pass-through unit. -/
theorem V_v19 (c : Dev nD) : (V m c main_v19 : Spec.Arr 256 128)
    = Spec.packW1 (m ((c : Thread nD τ).loc main_arg1)) (m ((c : Thread nD τ).loc main_arg2)) := by
  rw [term_v19 m c]
  funext p
  unfold Spec.packW1
  by_cases hk : (p 0 : Fin 256).val < 128
  · -- above the bias row: only w1 can land here
    rw [dif_pos hk, LibScatterSet.scatter_set_miss, LibScatterSet.scatter_set_miss]
    · by_cases hj : (p 1 : Fin 128).val < 30
      · rw [dif_pos hj]
        refine LibScatterSet.scatter_set_hit scatter_S256x128_S2_S128x30_01_n_01_0 _ _ _ p
          (ix2 ⟨(p 0 : Fin 256).val, hk⟩ ⟨(p 1 : Fin 128).val, hj⟩ : S128x30.Idx) ?_ ?_
        · rw [lands_w1]; exact ⟨rfl, rfl⟩
        · intro j' hj'
          rw [lands_w1] at hj'
          funext a
          match a with
          | ⟨0, _⟩ => exact Fin.ext hj'.1
          | ⟨1, _⟩ => exact Fin.ext hj'.2
      · rw [dif_neg hj, LibScatterSet.scatter_set_miss]
        · exact zero_word
        · intro j hl
          rw [lands_w1] at hl
          have : (j 1).val < 30 := (j 1).isLt
          omega
    · intro j hl
      rw [lands_b1] at hl
      omega
    · intro j hl
      rw [lands_u1] at hl
      omega
  · rw [dif_neg hk]
    by_cases h128 : (p 0 : Fin 256).val = 128
    · rw [if_pos h128]
      by_cases hj : (p 1 : Fin 128).val < 30
      · -- the bias row
        rw [dif_pos hj, LibScatterSet.scatter_set_miss]
        · rw [LibScatterSet.scatter_set_hit scatter_S256x128_S2_S30_0_0_01_0 _ _ _ p
            (ix1 ⟨(p 1 : Fin 128).val, hj⟩ : S30.Idx) ?_ ?_]
          · exact flat_b1 _ _
          · rw [lands_b1]; exact ⟨h128, rfl⟩
          · intro j' hj'
            rw [lands_b1] at hj'
            funext a
            match a with
            | ⟨0, _⟩ => exact Fin.ext hj'.2
        · intro j hl
          rw [lands_u1] at hl
          omega
      · rw [dif_neg hj]
        by_cases h30 : (p 1 : Fin 128).val = 30
        · -- the pass-through unit
          rw [if_pos h30]
          rw [LibScatterSet.scatter_set_hit scatter_S256x128_S2_S__n_01_01_0 _ _ _ p (ix0 : S_.Idx) ?_ ?_]
          · exact one_word
          · rw [lands_u1]; exact ⟨h128, h30⟩
          · intro j' _
            exact eq_ix0 j'
        · rw [if_neg h30, LibScatterSet.scatter_set_miss, LibScatterSet.scatter_set_miss, LibScatterSet.scatter_set_miss]
          · exact zero_word
          · intro j hl
            rw [lands_w1] at hl
            have : (j 0).val < 128 := (j 0).isLt
            omega
          · intro j hl
            rw [lands_b1] at hl
            have : (j 0).val < 30 := (j 0).isLt
            omega
          · intro j hl
            rw [lands_u1] at hl
            exact h30 hl.2
    · rw [if_neg h128, LibScatterSet.scatter_set_miss, LibScatterSet.scatter_set_miss, LibScatterSet.scatter_set_miss]
      · exact zero_word
      · intro j hl
        rw [lands_w1] at hl
        have : (j 0).val < 128 := (j 0).isLt
        omega
      · intro j hl
        rw [lands_b1] at hl
        exact h128 hl.1
      · intro j hl
        rw [lands_u1] at hl
        exact h128 hl.1

/-! ### The second layer's weights: w2 written at the origin, then the bias into row 30 -/

theorem win_w2 (j : S30x16.Idx) (a : Fin 2) : scatter_S128x128_S2_S30x16_01_n_01_0.window j a = (j a).val := by
  match a with
  | ⟨0, _⟩ => rfl
  | ⟨1, _⟩ => rfl

theorem start_w2 (j : S30x16.Idx) (a : Fin 2) : scatter_S128x128_S2_S30x16_01_n_01_0.start j (at2 0#32 0#32) a = 0 := by
  match a with
  | ⟨0, _⟩ => rfl
  | ⟨1, _⟩ => rfl

/-- Entry `j` of w2 lands at its own coordinates. -/
theorem lands_w2 (j : S30x16.Idx) (i : S128x128.Idx) :
    scatter_S128x128_S2_S30x16_01_n_01_0.resultIdx? j (at2 0#32 0#32) = some i
      ↔ (j 0).val = (i 0).val ∧ (j 1).val = (i 1).val := by
  rw [LibScatterSet.resultIdx?_eq_some_iff]
  constructor
  · intro h
    have h0 := h 0
    have h1 := h 1
    rw [start_w2, win_w2] at h0 h1
    constructor <;> omega
  · rintro ⟨h0, h1⟩ a
    rw [start_w2, win_w2]
    match a with
    | ⟨0, _⟩ => show (0 : ℤ) + ((j 0).val : ℤ) = ((i 0).val : ℤ); omega
    | ⟨1, _⟩ => show (0 : ℤ) + ((j 1).val : ℤ) = ((i 1).val : ℤ); omega

theorem win_b2_0 (j : S16.Idx) : scatter_S128x128_S2_S16_0_0_01_0.window j 0 = 0 := rfl
theorem win_b2_1 (j : S16.Idx) : scatter_S128x128_S2_S16_0_0_01_0.window j 1 = (j 0).val := rfl
theorem start_b2_0 (j : S16.Idx) : scatter_S128x128_S2_S16_0_0_01_0.start j (at2 30#32 0#32) 0 = 30 := rfl
theorem start_b2_1 (j : S16.Idx) : scatter_S128x128_S2_S16_0_0_01_0.start j (at2 30#32 0#32) 1 = 0 := rfl

/-- Entry `j` of the bias lands in row 30 at column `j`. -/
theorem lands_b2 (j : S16.Idx) (i : S128x128.Idx) :
    scatter_S128x128_S2_S16_0_0_01_0.resultIdx? j (at2 30#32 0#32) = some i
      ↔ (i 0).val = 30 ∧ (j 0).val = (i 1).val := by
  rw [LibScatterSet.resultIdx?_eq_some_iff]
  constructor
  · intro h
    have h0 := h 0
    have h1 := h 1
    rw [start_b2_0, win_b2_0] at h0
    rw [start_b2_1, win_b2_1] at h1
    constructor <;> omega
  · rintro ⟨h0, h1⟩ a
    match a with
    | ⟨0, _⟩ => show scatter_S128x128_S2_S16_0_0_01_0.start j (at2 30#32 0#32) 0 + (scatter_S128x128_S2_S16_0_0_01_0.window j 0 : ℤ) = ((i 0).val : ℤ); rw [start_b2_0, win_b2_0]; omega
    | ⟨1, _⟩ => show scatter_S128x128_S2_S16_0_0_01_0.start j (at2 30#32 0#32) 1 + (scatter_S128x128_S2_S16_0_0_01_0.window j 1 : ℤ) = ((i 1).val : ℤ); rw [start_b2_1, win_b2_1]; omega

/-- The bias as a vector of 16, read at `j`, is the bias row's entry `j`. -/
theorem flat_b2 (b2 : S1x16.Idx → EReal) (j : S16.Idx) :
    shapeCast S16 b2 shapeCasts_S1x16_S16 j = b2 (ix2 (0 : Fin 1) (j 0)) := by
  unfold shapeCast
  refine congrArg b2 (Shape.reshapeEquiv_eq_of_rowMajor _ ?_)
  rw [Shape.rowMajor_val_two, Shape.rowMajor_val_one]
  show 0 * _ + (j 0).val = (j 0).val
  omega

set_option maxHeartbeats 4000000 in
/-- The buffer the call reads as its third operand, as the host lines build it. -/
theorem term_v29 (c : Dev nD) : (V m c main_v29 : S128x128.Idx → EReal) =
      Host.scatter scatter_S128x128_S2_S16_0_0_01_0 (fun _ b => b)
        (Host.scatter scatter_S128x128_S2_S30x16_01_n_01_0 (fun _ b => b)
          (broadcastInDim S128x128 ![] bcast_S_S128x128 (constant (F := Ideal) S_ .f32 0x00000000#32))
          (at2 0#32 0#32)
          (m ((c : Thread nD τ).loc main_arg3)))
        (at2 30#32 0#32)
        (shapeCast S16 (m ((c : Thread nD τ).loc main_arg4)) shapeCasts_S1x16_S16) := by
  show StableHlo.after hostOps0 (fun b => m (c, b)) (Proc.devRef .tc main_v29) = _
  after_results
  rfl

/-- The second layer's weights with the bias row. -/
theorem V_v29 (c : Dev nD) : (V m c main_v29 : Spec.Arr 128 128)
    = Spec.packW2 (m ((c : Thread nD τ).loc main_arg3)) (m ((c : Thread nD τ).loc main_arg4)) := by
  rw [term_v29 m c]
  funext p
  unfold Spec.packW2
  by_cases ha : (p 1 : Fin 128).val < 16
  · rw [dif_pos ha]
    by_cases hj : (p 0 : Fin 128).val < 30
    · -- inside w2's extent: the bias row misses, w2 hits
      rw [dif_pos hj, LibScatterSet.scatter_set_miss]
      · refine LibScatterSet.scatter_set_hit scatter_S128x128_S2_S30x16_01_n_01_0 _ _ _ p
          (ix2 ⟨(p 0 : Fin 128).val, hj⟩ ⟨(p 1 : Fin 128).val, ha⟩ : S30x16.Idx) ?_ ?_
        · rw [lands_w2]; exact ⟨rfl, rfl⟩
        · intro j' hj'
          rw [lands_w2] at hj'
          funext a
          match a with
          | ⟨0, _⟩ => exact Fin.ext hj'.1
          | ⟨1, _⟩ => exact Fin.ext hj'.2
      · intro j hl
        rw [lands_b2] at hl
        omega
    · rw [dif_neg hj]
      by_cases h30 : (p 0 : Fin 128).val = 30
      · -- the bias row
        rw [if_pos h30]
        rw [LibScatterSet.scatter_set_hit scatter_S128x128_S2_S16_0_0_01_0 _ _ _ p
          (ix1 ⟨(p 1 : Fin 128).val, ha⟩ : S16.Idx) ?_ ?_]
        · exact flat_b2 _ _
        · rw [lands_b2]; exact ⟨h30, rfl⟩
        · intro j' hj'
          rw [lands_b2] at hj'
          funext a
          match a with
          | ⟨0, _⟩ => exact Fin.ext hj'.2
      · rw [if_neg h30, LibScatterSet.scatter_set_miss, LibScatterSet.scatter_set_miss]
        · exact zero_word
        · intro j hl
          rw [lands_w2] at hl
          have := (j 0).isLt
          have : (j 0).val < 30 := this
          omega
        · intro j hl
          rw [lands_b2] at hl
          exact h30 hl.1
  · rw [dif_neg ha, LibScatterSet.scatter_set_miss, LibScatterSet.scatter_set_miss]
    · exact zero_word
    · intro j hl
      rw [lands_w2] at hl
      have : (j 1).val < 16 := (j 1).isLt
      omega
    · intro j hl
      rw [lands_b2] at hl
      have : (j 0).val < 16 := (j 0).isLt
      omega

end Cert.ReferenceIdeal.RHost

end
-- ==== Proof.RBody.lean ====
/-
  The reference's body on one block of 1024 rows is the reference's arrangement of the perceptron on that block:
  a product with the packed first-layer weights, relu, a product with the packed second-layer weights, tanh, times two.
-/
import proofs.«128576_g2000306519504181_pallasbulk_291_1_alg».proof.Proof.Gen.ReferenceIdeal.Skeleton
import proofs.«128576_g2000306519504181_pallasbulk_291_1_alg».proof.Proof.Spec
import proofs.«128576_g2000306519504181_pallasbulk_291_1_alg».proof.Proof.LibMatmul
import Idealize.ShloMosaic.Lib.Pipeline.Value
import Idealize.ShloMosaic.Lib.ValueLayout

noncomputable section

namespace Cert.ReferenceIdeal.RBody

open Cert.ReferenceIdeal Cert.ReferenceIdeal.Gen Idealize.ShloMosaic Idealize.ShloMosaic.ValueIdx

/-- The hidden layer of one block at entry (r, j): relu of the product's entry. -/
theorem hidden_apply (x0 : FVec Ideal S1024x256 .f32) (x1 : FVec Ideal S256x128 .f32) (r : Fin 1024) (j : Fin 128) :
    (maximumf
        (matmul dot_S1024x256_S256x128_S1024x128_1_0_0_1_n_n none x0 x1 (constant (F := Ideal) S1024x128 .f32 0x00000000#32))
        (broadcast S1024x128 (FloatOps.ofBits (F := Ideal) .f32 0x00000000#32))) (ix2 r j)
      = max (∑ k : Fin 256, x0 (ix2 r k) * x1 (ix2 k j)) 0 := by
  show max (FloatOps.matmul dot_S1024x256_S256x128_S1024x128_1_0_0_1_n_n none x0 x1
        (constant (F := Ideal) S1024x128 .f32 0x00000000#32) (ix2 r j))
      (Ideal.ofBits .f32 0x00000000#32) = _
  rw [Ideal.ofBits_zero_f32]
  exact congrArg₂ max
    (LibMatmul.matmul_plain_zero_apply dot_S1024x256_S256x128_S1024x128_1_0_0_1_n_n rfl rfl rfl rfl rfl rfl none x0 x1 r j) rfl

/-- What the body stores, as one function of the three blocks it loads. -/
theorem pay_eq (x0 : Vec Ideal S1024x256 .f32) (x1 : Vec Ideal S256x128 .f32) (x2 : Vec Ideal S128x128 .f32) :
    k0_pay1 x0 x1 x2 = Spec.mlpR x0 x1 x2 := by
  funext p
  obtain ⟨r, a, rfl⟩ : ∃ (r : Fin 1024) (a : Fin 128), p = ix2 r a := ⟨p 0, p 1, eq_ix2 p⟩
  unfold k0_pay1 Spec.mlpR
  simp only [shapeCast_self]
  show Ideal.tanh (FloatOps.matmul dot_S1024x128_S128x128_S1024x128_1_0_0_1_n_n none _
        x2 (constant (F := Ideal) S1024x128 .f32 0x00000000#32) (ix2 r a)) * Spec.two = _
  refine congrArg (fun z => Ideal.tanh z * Spec.two) ?_
  refine (LibMatmul.matmul_plain_zero_apply dot_S1024x128_S128x128_S1024x128_1_0_0_1_n_n rfl rfl rfl rfl rfl rfl none _ x2 r a).trans ?_
  exact Finset.sum_congr rfl fun j _ => congrArg (· * x2 (ix2 j a)) (hidden_apply x0 x1 r j)

end Cert.ReferenceIdeal.RBody

end
-- ==== Proof.RValue.lean ====
/-
  The reference program's result array after the run is the perceptron of the arguments.

  Each of the 128 grid points writes back one block of 1024 rows of the reference's arrangement over the operand
  arrays (the arrangement reads its first operand on the entry's row only, and the two weight operands whole); the
  blocks tile the call's output array; the one line after the call keeps its first 16 columns; the operands are the
  packed arrays, and the packed arrangement cut to 16 columns is the perceptron.
-/
import proofs.«128576_g2000306519504181_pallasbulk_291_1_alg».proof.Proof.Gen.ReferenceIdeal.Frame
import proofs.«128576_g2000306519504181_pallasbulk_291_1_alg».proof.Proof.Spec
import proofs.«128576_g2000306519504181_pallasbulk_291_1_alg».proof.Proof.Algebra
import proofs.«128576_g2000306519504181_pallasbulk_291_1_alg».proof.Proof.RHost
import proofs.«128576_g2000306519504181_pallasbulk_291_1_alg».proof.Proof.RBody
import Idealize.ShloMosaic.Lib.Pipeline.Value
import Idealize.ShloMosaic.Lib.StableHlo.Run

noncomputable section

namespace Cert.ReferenceIdeal.RValue

open Cert.ReferenceIdeal Cert.ReferenceIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The origin of a rank-2 rectangle, as the constant-zero offset. -/
theorem origin_eq : (![0, 0] : Fin 2 → Nat) = fun _ => 0 := funext fun a => by fin_cases a <;> rfl

/-- The printed index maps, decided over the 128 grid points: the input rows' window moves with the output's on the row
    axis, and every other block index is zero (the two weight operands are single whole blocks). -/
theorem idx_facts : ∀ t : Fin cfg0.N,
    win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 :=
  (by decide +kernel : ∀ t : Fin grid0.N, _)

/-- Every one of the 128 row blocks of the output is some point's. -/
theorem idx_onto : ∀ q : Fin 128, ∃ t : Fin cfg0.N, win0_3.index t = ![q.val, 0] :=
  (by decide +kernel : ∀ q : Fin 128, ∃ t : Fin grid0.N, win0_3.index t = ![q.val, 0])

/-- An entry of the output array is in point `t`'s block iff each coordinate is in the block's range on its axis. -/
theorem mem_blk (t : Fin cfg0.N) (i : S131072x128.Idx) :
    i ∈ ((cfg0.win 3).blk t).view.set ↔ ∀ a : Fin 2, win0_3.index t a * S1024x128.size a ≤ (i a).val ∧ (i a).val < win0_3.index t a * S1024x128.size a + S1024x128.size a := by
  show i ∈ ((View.whole main_v30).slice (win0_3.rect t)).set ↔ _
  rw [View.set_slice_whole, Rect.mem_set_unit]
  exact Iff.rfl

/-- The reference's arrangement reads its first operand on the row of the entry only and the other two whole: two
    calls whose first operands agree on that row, whose weights are equal and whose entries share the column agree. -/
theorem mlpR_row {R R' : ℕ} (X : Spec.Arr R 256) (X' : Spec.Arr R' 256) (W1 W1' : Spec.Arr 256 128) (W2 W2' : Spec.Arr 128 128)
    (p : (⟨2, ![R, 128]⟩ : Shape).Idx) (p' : (⟨2, ![R', 128]⟩ : Shape).Idx)
    (hX : ∀ k : Fin 256, X (ix2 (p 0 : Fin R) k) = X' (ix2 (p' 0 : Fin R') k))
    (hW1 : W1 = W1') (hW2 : W2 = W2') (hp : (p 1 : Fin 128) = (p' 1 : Fin 128)) :
    Spec.mlpR X W1 W2 p = Spec.mlpR X' W1' W2' p' := by
  subst hW1 hW2
  unfold Spec.mlpR
  simp only [hX, hp]

/-- A row block of ANY array of 256 columns, read at an entry, is the array at the block's place. -/
theorem read_rows (A : Spec.Arr 131072 256) (t : Fin cfg0.N) (y : S1024x128.Idx) (k : Fin 256) :
    ((cfg0.win 0).blk t).view.read (Elt Ideal) A (ix2 (y 0 : Fin 1024) k)
      = A (ix2 ((((cfg0.win 3).blk t).view.emb y) 0 : Fin 131072) k) := by
  obtain ⟨e00, e01, e10, e11, e20, e21, e31⟩ := idx_facts t
  show A (((cfg0.win 0).blk t).view.emb (ix2 (y 0 : Fin 1024) k)) = _
  refine congrArg A ?_
  funext a; apply Fin.ext
  match a with
  | ⟨0, _⟩ => show win0_0.index t (0 : Fin 2) * 1024 + 1 * (y 0).val = win0_3.index t (0 : Fin 2) * 1024 + 1 * (y 0).val; omega
  | ⟨1, _⟩ => show win0_0.index t (1 : Fin 2) * 256 + 1 * k.val = k.val; omega

/-- The single block of the first weight operand's window is the whole array, whatever it holds. -/
theorem read_whole1 (A : Spec.Arr 256 128) (t : Fin cfg0.N) : ((cfg0.win 1).blk t).view.read (Elt Ideal) A = A := by
  obtain ⟨e00, e01, e10, e11, e20, e21, e31⟩ := idx_facts t
  funext z
  show A (((cfg0.win 1).blk t).view.emb z) = A z
  refine congrArg A ?_
  funext a; apply Fin.ext
  match a with
  | ⟨0, _⟩ => show win0_1.index t (0 : Fin 2) * 256 + 1 * (z 0).val = (z 0).val; omega
  | ⟨1, _⟩ => show win0_1.index t (1 : Fin 2) * 128 + 1 * (z 1).val = (z 1).val; omega

/-- The single block of the second weight operand's window is the whole array, whatever it holds. -/
theorem read_whole2 (A : Spec.Arr 128 128) (t : Fin cfg0.N) : ((cfg0.win 2).blk t).view.read (Elt Ideal) A = A := by
  obtain ⟨e00, e01, e10, e11, e20, e21, e31⟩ := idx_facts t
  funext z
  show A (((cfg0.win 2).blk t).view.emb z) = A z
  refine congrArg A ?_
  funext a; apply Fin.ext
  match a with
  | ⟨0, _⟩ => show win0_2.index t (0 : Fin 2) * 128 + 1 * (z 0).val = (z 0).val; omega
  | ⟨1, _⟩ => show win0_2.index t (1 : Fin 2) * 128 + 1 * (z 1).val = (z 1).val; omega

/-- The arrangement over the three windows' blocks at point `t` of ANY three arrays is block `t` of the arrangement
    over the arrays. -/
theorem block_eq (A5 : Spec.Arr 131072 256) (A19 : Spec.Arr 256 128) (A29 : Spec.Arr 128 128) (t : Fin cfg0.N) :
    (cfg0.win 3).cut (grid0.coords t)
        (Spec.mlpR (R := 1024) (((cfg0.win 0).blk t).view.read (Elt Ideal) A5) (((cfg0.win 1).blk t).view.read (Elt Ideal) A19)
          (((cfg0.win 2).blk t).view.read (Elt Ideal) A29))
      = ((cfg0.win 3).blk t).view.read (Elt Ideal) (Spec.mlpR A5 A19 A29) := by
  obtain ⟨e00, e01, e10, e11, e20, e21, e31⟩ := idx_facts t
  funext y
  show Spec.mlpR (R := 1024) (((cfg0.win 0).blk t).view.read (Elt Ideal) A5) (((cfg0.win 1).blk t).view.read (Elt Ideal) A19)
      (((cfg0.win 2).blk t).view.read (Elt Ideal) A29) y
    = Spec.mlpR A5 A19 A29 (((cfg0.win 3).blk t).view.emb y)
  refine mlpR_row (R := 1024) (((cfg0.win 0).blk t).view.read (Elt Ideal) A5) A5 (((cfg0.win 1).blk t).view.read (Elt Ideal) A19) A19
    (((cfg0.win 2).blk t).view.read (Elt Ideal) A29) A29 y (((cfg0.win 3).blk t).view.emb y)
    (fun k => read_rows A5 t y k) (read_whole1 A19 t) (read_whole2 A29 t) ?_
  apply Fin.ext
  show (y 1).val = win0_3.index t (1 : Fin 2) * 128 + 1 * (y 1).val
  omega

/-- What grid point `t` writes back is block `t` of the reference's arrangement over the operand arrays as the call finds them. -/
theorem flushed_eq (c : Dev nD) (t : Fin cfg0.N) :
    (dats m 0 c).flushed 3 t = ((cfg0.win 3).blk t).view.read (Elt Ideal)
      (Spec.mlpR (V m c main_v5) (V m c main_v19) (V m c main_v29)) := by
  show (cfg0.win 3).cut (grid0.coords t) ((dats m 0 c).after 3 t) = _
  rw [after0_3]
  unfold out0_3
  rw [View.canon_unit_zero origin_eq]
  simp only [View.ld_unit_zero (S := S1024x256) origin_eq, View.ld_unit_zero (S := S256x128) origin_eq,
    View.ld_unit_zero (S := S128x128) origin_eq]
  rw [RBody.pay_eq]
  exact block_eq (V m c main_v5) (V m c main_v19) (V m c main_v29) t

/-- Every entry of the output array lies in the block of the point numbered by its row divided by 1024. -/
theorem cover (i : S131072x128.Idx) :
    ∃ t : Fin cfg0.N, (cfg0.win 3).flush t = true ∧ i ∈ ((cfg0.win 3).blk t).view.set := by
  have hi0 : (i 0).val < 131072 := (i 0).isLt
  have hi1 : (i 1).val < 128 := (i 1).isLt
  obtain ⟨t, ht⟩ := idx_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 128 ≤ (i 1).val ∧ (i 1).val < win0_3.index t (1 : Fin 2) * 128 + 128; omega

/-- The call's output array after the 128 grid points: the reference's arrangement over the operands as the call finds them. -/
theorem final (c : Dev nD) : (dats m 0 c).arrAt 3 cfg0.N
    = Spec.mlpR (V m c main_v5) (V m c main_v19) (V m c main_v29) :=
  (dats m 0 c).arrAt_eq_of_cover 3 (Spec.mlpR (V m c main_v5) (V m c main_v19) (V m c main_v29))
    (fun t _ => flushed_eq m c t) cover

/-- Cutting an array of 128 columns to its columns 0 to 15 keeps the first 16 columns. -/
theorem slice_keepCols (Y : Spec.Arr 131072 128) :
    extractStridedSlice S131072x16 ![0, 0] Y slices_S131072x128_S131072x16_0_0 = Spec.keepCols Y := by
  funext j
  refine (extractStridedSlice_apply _ Y _ j
    (ix2 (j 0 : Fin 131072) ⟨(j 1 : Fin 16).val, Nat.lt_of_lt_of_le (j 1 : Fin 16).isLt (by decide : 16 ≤ 128)⟩) ?_).trans ?_
  · intro a
    match a with
    | ⟨0, _⟩ => show (j 0).val = 0 + (j 0).val; omega
    | ⟨1, _⟩ => show (j 1).val = 0 + (j 1).val; omega
  · rfl

/-- The line after the call keeps the first 16 columns of the call's output array. -/
theorem tail_eq (c : Dev nD) : Pipeline.afterTail₀ cfgs (dats m) 0 (V0 m) [hostOps1] c main_v31
    = Spec.keepCols ((dats m 0 c).arrAt 3 cfg0.N) := by
  unfold Pipeline.afterTail₀
  show StableHlo.after hostOps1 _ (Proc.devRef .tc main_v31) = _
  after_results
  have hw : Pipeline.withArrays (cfgs 0).spec c (V0 m c) (fun w => (dats m 0 c).arrAt w (cfgs 0).N) (Proc.devRef .tc main_v30)
      = (dats m 0 c).arrAt 3 cfg0.N := Pipeline.withArrays_arr spec0 launch0.win.arr_inj c _ _ 3
  rw [hw]
  exact slice_keepCols _

/-- The result buffer after the run, given the call's output array: the perceptron of the arguments. -/
theorem result_eq (hfinal : ∀ c : Dev nD, (dats m 0 c).arrAt 3 cfg0.N = Spec.mlpR (V m c main_v5) (V m c main_v19) (V m c main_v29))
    (c : Dev nD) : Pipeline.afterTail₀ cfgs (dats m) 0 (V0 m) [hostOps1] c main_v31
    = Spec.policy (m ((c : Thread nD τ).loc main_arg0)) (m ((c : Thread nD τ).loc main_arg1)) (m ((c : Thread nD τ).loc main_arg2)) (m ((c : Thread nD τ).loc main_arg3)) (m ((c : Thread nD τ).loc main_arg4)) := by
  rw [tail_eq m c, hfinal c, RHost.V_v5 m c, RHost.V_v19 m c, RHost.V_v29 m c]
  exact Spec.mlpR_pack _ _ _ _ _

/-- The run: the result (the call's output cut to 16 columns) is the perceptron of the arguments, the arguments unchanged. -/
theorem run : θ_run (defs (F := Ideal)) (onTc (τ := τ) (main (F := Ideal))) ⟨m, fun _ => 0, ρ⟩ fun r => ∀ c : Dev nD,
      r.2.mem ((c : Thread nD τ).loc main_v31) = Spec.policy (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨((h c).2 main_v31 (Pipeline.mem_restRefs_of main_v31 (by decide) (by decide))).trans (result_eq m (final m) c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main (F := Ideal) m ρ)

end Cert.ReferenceIdeal.RValue

end
-- ==== Proof.lean ====
/-
  Both programs compute the two-layer perceptron 2 · tanh(relu(x · w1 + b1) · w2 + b2) over the extended reals.

  The kernel pads the 30 hidden units to 128 with zero weights and adds the biases after each matrix product; the
  reference appends a column of ones to the input and a bias row to each weight matrix, so that the products
  carry the biases, and keeps the first 16 of 128 output columns.  Zero weights contribute nothing to a sum
  (0 · y = 0 on the extended reals, for every y), the ones column contributes exactly the bias, and a sum of
  extended reals does not depend on its order: the two results are one function of the arguments (Proof/Algebra.lean),
  with no appeal to finiteness.  The frames are the generated ones; the idealization rewrote nothing.
-/
import proofs.«128576_g2000306519504181_pallasbulk_291_1_alg».proof.Defs
import proofs.«128576_g2000306519504181_pallasbulk_291_1_alg».proof.Proof.Gen.Kernel.Frame
import proofs.«128576_g2000306519504181_pallasbulk_291_1_alg».proof.Proof.Gen.KernelIdeal.Frame
import proofs.«128576_g2000306519504181_pallasbulk_291_1_alg».proof.Proof.Gen.ReferenceIdeal.Frame
import proofs.«128576_g2000306519504181_pallasbulk_291_1_alg».proof.Proof.Gen.Pre_finite_inputs
import proofs.«128576_g2000306519504181_pallasbulk_291_1_alg».proof.Proof.KValue
import proofs.«128576_g2000306519504181_pallasbulk_291_1_alg».proof.Proof.RValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => Cert.ReferenceIdeal.Gen.frame m ρ

/-- Both runs end with the perceptron of their (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RValue.run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
